-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000 : Shape := ⟨1, ![200000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg2 : IVec S200000 32) (main_v32 : IVec S_ 1) (main_c_12 : IVec S_ 32) : IVec S_ 1 :=
  let main_v33 : IVec S200000 32 := broadcastInDim S200000 ![] bcast_S_S200000 main_c_12
  let main_v34 : IVec S200000 1 := cmpi .slt main_arg2 main_v33
  let main_c_13 : IVec S_ 1 := constantI S_ 1 1#1
  let main_v35 : IVec S_ 1 := (fun x v => Host.reduce IntOp.andi x v reducesTo_S200000_S_d0 h_S_) main_v34 main_c_13
  let main_v36 : IVec S_ 1 := andi main_v32 main_v35
  main_v36

def fn_part1 {F : FTy → Type} [FloatOps F] (main_arg2 : IVec S200000 32) (main_arg5 : FVec F S512x1024 .f32) (main_arg6 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_c_10 : IVec S_ 32 := constantI S_ 32 0#32
  let main_v29 : IVec S200000 32 := broadcastInDim S200000 ![] bcast_S_S200000 main_c_10
  let main_v30 : IVec S200000 1 := cmpi .sge main_arg2 main_v29
  let main_c_11 : IVec S_ 1 := constantI S_ 1 1#1
  let main_v31 : IVec S_ 1 := (fun x v => Host.reduce IntOp.andi x v reducesTo_S200000_S_d0 h_S_) main_v30 main_c_11
  let main_v32 : IVec S_ 1 := andi main_v28 main_v31
  let main_c_12 : IVec S_ 32 := constantI S_ 32 8#32
  fn_part2 (F := F) main_arg2 main_v32 main_c_12

def fn {F : FTy → Type} [FloatOps F] (main_arg0 : FVec F S200000x128 .f32) (main_arg1 : FVec F S200000x128 .f32) (main_arg2 : IVec S200000 32) (main_arg3 : FVec F S256x512 .f32) (main_arg4 : FVec F S512 .f32) (main_arg5 : FVec F S512x1024 .f32) (main_arg6 : FVec F S1024 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg2 main_arg5 main_arg6 main_v13 main_v16
-- ==== Kernel.lean ====
abbrev S200000x128 : Shape := ⟨2, ![200000, 128]⟩
abbrev S200000 : Shape := ⟨1, ![200000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S200000x1 : Shape := ⟨2, ![200000, 1]⟩
abbrev S_ : Shape := ⟨0, ![]⟩
abbrev S128x512 : Shape := ⟨2, ![128, 512]⟩
abbrev S1x512 : Shape := ⟨2, ![1, 512]⟩
abbrev S1x1024 : Shape := ⟨2, ![1, 1024]⟩
abbrev S2000x128 : Shape := ⟨2, ![2000, 128]⟩
abbrev S2000x1 : Shape := ⟨2, ![2000, 1]⟩
abbrev S2000x512 : Shape := ⟨2, ![2000, 512]⟩
abbrev S512x128 : Shape := ⟨2, ![512, 128]⟩
abbrev S1x128 : Shape := ⟨2, ![1, 128]⟩

abbrev nBuf : Space → Nat
  | .hbm => 24
  | .vmem => 13
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000, .i32⟩
  | .hbm, ⟨3, _⟩ => ⟨S256x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S200000x1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S200000x1, .i32⟩
  | .hbm, ⟨12, _⟩ => ⟨S200000x1, .i32⟩
  | .hbm, ⟨13, _⟩ => ⟨S_, .i32⟩
  | .hbm, ⟨14, _⟩ => ⟨S200000x1, .i32⟩
  | .hbm, ⟨15, _⟩ => ⟨S200000x1, .i32⟩
  | .hbm, ⟨16, _⟩ => ⟨S128x512, .f32⟩
  | .hbm, ⟨17, _⟩ => ⟨S128x512, .bf16⟩
  | .hbm, ⟨18, _⟩ => ⟨S128x512, .f32⟩
  | .hbm, ⟨19, _⟩ => ⟨S128x512, .bf16⟩
  | .hbm, ⟨20, _⟩ => ⟨S512x1024, .bf16⟩
  | .hbm, ⟨21, _⟩ => ⟨S1x512, .f32⟩
  | .hbm, ⟨22, _⟩ => ⟨S1x1024, .f32⟩
  | .hbm, ⟨23, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .i32⟩
  | .local _ .vmem, ⟨5, _⟩ => ⟨S2000x1, .i32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S512x1024, .bf16⟩
  | .local _ .vmem, ⟨10, _⟩ => ⟨S1x1024, .f32⟩
  | .local _ .vmem, ⟨11, _⟩ => ⟨S2000x128, .f32⟩
  | .local _ .vmem, ⟨12, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S200000_S200000x1 : S200000.ShapeCasts S200000x1
  bcast_S_S200000x1 : S_.BroadcastsInDim S200000x1 (![] : Fin 0 → Fin S200000x1.rank)
  slices_S256x512_S128x512_0_0 : S256x512.Slices ![0, 0] S128x512
  bitsLt_bf16_f32 : FTy.bits .bf16 < FTy.bits .f32
  slices_S256x512_S128x512_128_0 : S256x512.Slices ![128, 0] S128x512
  shapeCasts_S512_S1x512 : S512.ShapeCasts S1x512
  shapeCasts_S1024_S1x1024 : S1024.ShapeCasts S1x1024
  inb_S2000x128_S2000x128_0_0 : ∀ a, (![0, 0] : Fin 2 → Nat) a + S2000x128.size a ≤ S2000x128.size a
  h_S2000x128 : 0 < S2000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S512x1024_S512x128_0_0 : ∀ a, (![0, 0] : Fin 2 → Nat) a + S512x128.size a ≤ S512x1024.size a
  h_S512x128 : 0 < S512x128.numel
  shapeCasts_S512x128_S512x128 : S512x128.ShapeCasts S512x128
  inb_S1x1024_S1x128_0_0 : ∀ a, (![0, 0] : Fin 2 → Nat) a + S1x128.size a ≤ S1x1024.size a
  h_S1x128 : 0 < S1x128.numel
  shapeCasts_S1x128_S1x128 : S1x128.ShapeCasts S1x128
  broadcasts_S1x128_S2000x128 : S1x128.Broadcasts S2000x128
  natLt_1_32 : 1 < 32
  broadcasts_S2000x1_S2000x128 : S2000x1.Broadcasts S2000x128
  inb_S512x1024_S512x128_0_128 : ∀ a, (![0, 128] : Fin 2 → Nat) a + S512x128.size a ≤ S512x1024.size a
  inb_S1x1024_S1x128_0_128 : ∀ a, (![0, 128] : Fin 2 → Nat) a + S1x128.size a ≤ S1x1024.size a
  inb_S512x1024_S512x128_0_256 : ∀ a, (![0, 256] : Fin 2 → Nat) a + S512x128.size a ≤ S512x1024.size a
  inb_S1x1024_S1x128_0_256 : ∀ a, (![0, 256] : Fin 2 → Nat) a + S1x128.size a ≤ S1x1024.size a
  inb_S512x1024_S512x128_0_384 : ∀ a, (![0, 384] : Fin 2 → Nat) a + S512x128.size a ≤ S512x1024.size a
  inb_S1x1024_S1x128_0_384 : ∀ a, (![0, 384] : Fin 2 → Nat) a + S1x128.size a ≤ S1x1024.size a
  inb_S512x1024_S512x128_0_512 : ∀ a, (![0, 512] : Fin 2 → Nat) a + S512x128.size a ≤ S512x1024.size a
  inb_S1x1024_S1x128_0_512 : ∀ a, (![0, 512] : Fin 2 → Nat) a + S1x128.size a ≤ S1x1024.size a
  inb_S512x1024_S512x128_0_640 : ∀ a, (![0, 640] : Fin 2 → Nat) a + S512x128.size a ≤ S512x1024.size a
  inb_S1x1024_S1x128_0_640 : ∀ a, (![0, 640] : Fin 2 → Nat) a + S1x128.size a ≤ S1x1024.size a
  inb_S512x1024_S512x128_0_768 : ∀ a, (![0, 768] : Fin 2 → Nat) a + S512x128.size a ≤ S512x1024.size a
  inb_S1x1024_S1x128_0_768 : ∀ a, (![0, 768] : Fin 2 → Nat) a + S1x128.size a ≤ S1x1024.size a
  inb_S512x1024_S512x128_0_896 : ∀ a, (![0, 896] : Fin 2 → Nat) a + S512x128.size a ≤ S512x1024.size a
  inb_S1x1024_S1x128_0_896 : ∀ a, (![0, 896] : Fin 2 → Nat) a + S1x128.size a ≤ S1x1024.size a
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S200000x1.size a
  hwx0_2 : ∀ i : grid0.Coords, EltTy.bits .i32 = 32 ∨ (Rect.block (s := S200000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S512x1024.size a
  hwx0_6 : ∀ i : grid0.Coords, EltTy.bits .bf16 = 32 ∨ (Rect.block (s := S512x1024) S512x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S200000x128.size a
  hwx0_8 : ∀ i : grid0.Coords, EltTy.bits .f32 = 32 ∨ (Rect.block (s := S200000x128) S2000x128.size (cc0_transform_8 i) (hinb0_8 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x128 : Shape := ⟨2, ![200000, 128]⟩
abbrev S200000 : Shape := ⟨1, ![200000]⟩
abbrev S256x512 : Shape := ⟨2, ![256, 512]⟩
abbrev S512 : Shape := ⟨1, ![512]⟩
abbrev S512x1024 : Shape := ⟨2, ![512, 1024]⟩
abbrev S1024 : Shape := ⟨1, ![1024]⟩
abbrev S200000x256 : Shape := ⟨2, ![200000, 256]⟩
abbrev S200000x512 : Shape := ⟨2, ![200000, 512]⟩
abbrev S1x512 : Shape := ⟨2, ![1, 512]⟩
abbrev S_ : Shape := ⟨0, ![]⟩
abbrev S200000x1024 : Shape := ⟨2, ![200000, 1024]⟩
abbrev S1x1024 : Shape := ⟨2, ![1, 1024]⟩
abbrev S200000x1 : Shape := ⟨2, ![200000, 1]⟩
abbrev S128 : Shape := ⟨1, ![128]⟩
abbrev S1x128 : Shape := ⟨2, ![1, 128]⟩
abbrev S200000x128x1 : Shape := ⟨3, ![200000, 128, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000, .i32⟩
  | .hbm, ⟨3, _⟩ => ⟨S256x512, .f32⟩
  | .hbm, ⟨4, _⟩ => ⟨S512, .f32⟩
  | .hbm, ⟨5, _⟩ => ⟨S512x1024, .f32⟩
  | .hbm, ⟨6, _⟩ => ⟨S1024, .f32⟩
  | .hbm, ⟨7, _⟩ => ⟨S200000x256, .f32⟩
  | .hbm, ⟨8, _⟩ => ⟨S200000x512, .f32⟩
  | .hbm, ⟨9, _⟩ => ⟨S1x512, .f32⟩
  | .hbm, ⟨10, _⟩ => ⟨S200000x512, .f32⟩
  | .hbm, ⟨11, _⟩ => ⟨S200000x512, .f32⟩
  | .hbm, ⟨12, _⟩ => ⟨S_, .f32⟩
  | .hbm, ⟨13, _⟩ => ⟨S200000x512, .f32⟩
  | .hbm, ⟨14, _⟩ => ⟨S200000x512, .f32⟩
  | .hbm, ⟨15, _⟩ => ⟨S200000x1024, .f32⟩
  | .hbm, ⟨16, _⟩ => ⟨S1x1024, .f32⟩
  | .hbm, ⟨17, _⟩ => ⟨S200000x1024, .f32⟩
  | .hbm, ⟨18, _⟩ => ⟨S200000x1024, .f32⟩
  | .hbm, ⟨19, _⟩ => ⟨S200000x1, .i32⟩
  | .hbm, ⟨20, _⟩ => ⟨S_, .i32⟩
  | .hbm, ⟨21, _⟩ => ⟨S200000x1, .i32⟩
  | .hbm, ⟨22, _⟩ => ⟨S200000x1, .i32⟩
  | .hbm, ⟨23, _⟩ => ⟨S128, .i32⟩
  | .hbm, ⟨24, _⟩ => ⟨S1x128, .i32⟩
  | .hbm, ⟨25, _⟩ => ⟨S200000x128, .i32⟩
  | .hbm, ⟨26, _⟩ => ⟨S200000x128, .i32⟩
  | .hbm, ⟨27, _⟩ => ⟨S200000x128, .i32⟩
  | .hbm, ⟨28, _⟩ => ⟨S_, .i32⟩
  | .hbm, ⟨29, _⟩ => ⟨S200000x128, .i32⟩
  | .hbm, ⟨30, _⟩ => ⟨S200000x128, .i1⟩
  | .hbm, ⟨31, _⟩ => ⟨S_, .i32⟩
  | .hbm, ⟨32, _⟩ => ⟨S200000x128, .i32⟩
  | .hbm, ⟨33, _⟩ => ⟨S200000x128, .i32⟩
  | .hbm, ⟨34, _⟩ => ⟨S200000x128, .i32⟩
  | .hbm, ⟨35, _⟩ => ⟨S200000x128x1, .i32⟩
  | .hbm, ⟨36, _⟩ => ⟨S1, .i32⟩
  | .hbm, ⟨37, _⟩ => ⟨S_, .i32⟩
  | .hbm, ⟨38, _⟩ => ⟨S200000x128x1, .i32⟩
  | .hbm, ⟨39, _⟩ => ⟨S200000x128x1, .i1⟩
  | .hbm, ⟨40, _⟩ => ⟨S1x1x1, .i32⟩
  | .hbm, ⟨41, _⟩ => ⟨S200000x128x1, .i32⟩
  | .hbm, ⟨42, _⟩ => ⟨S200000x128x1, .i1⟩
  | .hbm, ⟨43, _⟩ => ⟨S200000x128x1, .i1⟩
  | .hbm, ⟨44, _⟩ => ⟨S_, .i1⟩
  | .hbm, ⟨45, _⟩ => ⟨S200000x128, .i1⟩
  | .hbm, ⟨46, _⟩ => ⟨S200000x128, .f32⟩
  | .hbm, ⟨47, _⟩ => ⟨S_, .f32⟩
  | .hbm, ⟨48, _⟩ => ⟨S200000x128, .f32⟩
  | .hbm, ⟨49, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  concatenates_S200000x128_S200000x128_S200000x256_d1 : Shape.Concatenates [S200000x128, S200000x128] S200000x256 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  bcast_S1024_S1x1024_1 : S1024.BroadcastsInDim S1x1024 (![1] : Fin 1 → Fin S1x1024.rank)
  bcast_S1x1024_S200000x1024_0_1 : S1x1024.BroadcastsInDim S200000x1024 (![0, 1] : Fin 2 → Fin S200000x1024.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S128_S1x128_1 : S128.BroadcastsInDim S1x128 (![1] : Fin 1 → Fin S1x128.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  shapeCasts_S200000x128_S200000x128x1 : S200000x128.ShapeCasts S200000x128x1
  bcast_S_S200000x128x1 : S_.BroadcastsInDim S200000x128x1 (![] : Fin 0 → Fin S200000x128x1.rank)
  bcast_S1_S1x1x1_2 : S1.BroadcastsInDim S1x1x1 (![2] : Fin 1 → Fin S1x1x1.rank)
  bcast_S1x1x1_S200000x128x1_0_1_2 : S1x1x1.BroadcastsInDim S200000x128x1 (![0, 1, 2] : Fin 3 → Fin S200000x128x1.rank)
  reducesTo_S200000x128x1_S200000x128_d2 : S200000x128x1.ReducesTo [2] S200000x128
  h_S_ : 0 < S_.numel
  dot_S200000x256_S256x512_S200000x512_1_0_0_1_n_n_wf : DotDims.WF S200000x256 S256x512 S200000x512 [1] [0] [0] [1] [] []
  dot_S200000x512_S512x1024_S200000x1024_1_0_0_1_n_n_wf : DotDims.WF S200000x512 S512x1024 S200000x1024 [1] [0] [0] [1] [] []
  gather_S200000x1024_S200000x128x1_S200000x128_n_1_0_0_1_2_11_wf : GatherDims.WF S200000x1024 S200000x128x1 S200000x128 [] [1] [0] [1] [0] 2 ![1, 1]

variable [Facts₀]

def dot_S200000x256_S256x512_S200000x512_1_0_0_1_n_n : DotDims S200000x256 S256x512 S200000x512 where
  lhsContracting := [1]
  rhsContracting := [0]
  lhsNonContracting := [0]
  rhsNonContracting := [1]
  lhsBatch := []
  rhsBatch := []
  wf := dot_S200000x256_S256x512_S200000x512_1_0_0_1_n_n_wf
def dot_S200000x512_S512x1024_S200000x1024_1_0_0_1_n_n : DotDims S200000x512 S512x1024 S200000x1024 where
  lhsContracting := [1]
  rhsContracting := [0]
  lhsNonContracting := [0]
  rhsNonContracting := [1]
  lhsBatch := []
  rhsBatch := []
  wf := dot_S200000x512_S512x1024_S200000x1024_1_0_0_1_n_n_wf
def gather_S200000x1024_S200000x128x1_S200000x128_n_1_0_0_1_2_11 : GatherDims S200000x1024 S200000x128x1 S200000x128 where
  offsetDims := []
  collapsedSliceDims := [1]
  operandBatchingDims := [0]
  startIndicesBatchingDims := [0]
  startIndexMap := [1]
  indexVectorDim := 2
  sliceSizes := ![1, 1]
  wf := gather_S200000x1024_S200000x128x1_S200000x128_n_1_0_0_1_2_11_wf

class Facts : Prop extends Facts₀ where

variable [Facts]
-- ==== Proof.Spec.lean ====
/-
  The function both programs compute, over the extended reals.

  An edge `e` carries two embedding rows `f e`, `t e` (128 wide each) and a type `ty e < 8`. The hidden layer is
  `hidden e k = max (∑_j f e j · W1 j k + ∑_j t e j · W1 (128 + j) k + b1 k) 0` (512 units), the full second layer
  would be `layer2 e n = ∑_k hidden e k · W2 k n + b2 n` (1024 wide), and the result keeps, of that row, the 128
  columns of the edge's own type: `result e c = layer2 e (128 · ty e + c)`.

  Two laws join the two programs to this function. The concatenated row `[f e, t e]` (256 wide) against all of `W1`
  is the sum of the two half products: a sum over 256 indices splits into its lower and upper 128. And a sum over the
  eight types of (indicator of "the edge has this type") · (that type's slice), accumulated from zero, is the slice of
  the edge's own type: seven terms vanish and one is multiplied by one.
-/
import Idealize.ShloMosaic.PureOps.Ideal
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx
open scoped BigOperators

/-- Row `j` of the upper half of `W1` (the rows the `from` embedding meets). -/
abbrev lo (j : Fin 128) : Fin 256 := ⟨j.val, by omega⟩
/-- Row `128 + j` of `W1` (the rows the `to` embedding meets). -/
abbrev hi (j : Fin 128) : Fin 256 := ⟨128 + j.val, by omega⟩

/-- Column `c` of type `ty`'s slice of the second layer: column `128 · ty + c` of 1024. -/
abbrev col (ty : Fin 8) (c : Fin 128) : Fin 1024 := ⟨128 * ty.val + c.val, by omega⟩

/-- The type of edge `e`, read off the integer array (reduced into `[0, 8)`, which is the identity on the
    admitted inputs). -/
def tyOf (et : (⟨1, ![200000]⟩ : Shape).Idx → BitVec 32) (e : Fin 200000) : Fin 8 :=
  ⟨(et (ix1 e)).toNat % 8, Nat.mod_lt _ (by decide)⟩

section
variable (f t : (⟨2, ![200000, 128]⟩ : Shape).Idx → EReal) (W1 : (⟨2, ![256, 512]⟩ : Shape).Idx → EReal)
  (b1 : (⟨1, ![512]⟩ : Shape).Idx → EReal) (W2 : (⟨2, ![512, 1024]⟩ : Shape).Idx → EReal)
  (b2 : (⟨1, ![1024]⟩ : Shape).Idx → EReal)

/-- Hidden unit `k` of edge `e`: the two half products, the bias, the rectifier. -/
def hidden (e : Fin 200000) (k : Fin 512) : EReal :=
  max (((∑ j : Fin 128, f (ix2 e j) * W1 (ix2 (lo j) k)) + (∑ j : Fin 128, t (ix2 e j) * W1 (ix2 (hi j) k)))
    + b1 (ix1 k)) (Ideal.ofBits .f32 0x00000000#32)

/-- Column `n` of the full second layer at edge `e`. -/
def layer2 (e : Fin 200000) (n : Fin 1024) : EReal :=
  (∑ k : Fin 512, hidden f t W1 b1 e k * W2 (ix2 k n)) + b2 (ix1 n)

/-- The result at edge `e`, column `c`, for an edge of type `ty`. -/
def resultAt (ty : Fin 8) (e : Fin 200000) (c : Fin 128) : EReal :=
  layer2 f t W1 b1 W2 b2 e (col ty c)

/-- THE RESULT ARRAY: edge `e`, column `c` holds column `c` of the slice of `e`'s type. -/
def G (et : (⟨1, ![200000]⟩ : Shape).Idx → BitVec 32) : (⟨2, ![200000, 128]⟩ : Shape).Idx → EReal :=
  fun i => resultAt f t W1 b1 W2 b2 (tyOf et ⟨(i 0).val, idx2_lt0 i⟩) ⟨(i 0).val, idx2_lt0 i⟩ ⟨(i 1).val, idx2_lt1 i⟩

theorem G_ix2 (et : (⟨1, ![200000]⟩ : Shape).Idx → BitVec 32) (e : Fin 200000) (c : Fin 128) :
    G f t W1 b1 W2 b2 et (ix2 e c) = resultAt f t W1 b1 W2 b2 (tyOf et e) e c := rfl

end

/-- A sum over 256 indices is the sum over its lower 128 plus the sum over its upper 128. -/
theorem sum_256_split {M : Type*} [AddCommMonoid M] (g : Fin 256 → M) :
    (∑ j : Fin 256, g j) = (∑ j : Fin 128, g (lo j)) + (∑ j : Fin 128, g (hi j)) := by
  have h := Fin.sum_univ_add (a := 128) (b := 128) (fun j : Fin (128 + 128) => g (Fin.cast (by norm_num) j))
  have e1 : (∑ j : Fin 256, g j) = ∑ j : Fin (128 + 128), g (Fin.cast (by norm_num) j) :=
    (Fintype.sum_equiv (finCongr (by norm_num : 128 + 128 = 256)) _ _ (fun j => rfl)).symm
  rw [e1, h]
  congr 1

/-- The eight masked slices accumulated from zero leave the slice whose mask is one: the mask of type `τ` is one
    exactly at `τ = ty`. -/
theorem masked_sum_eq (s : Fin 8 → EReal) (μ : Fin 8 → EReal) (ty : Fin 8)
    (hμ : ∀ τ : Fin 8, μ τ = if τ = ty then 1 else 0) :
    (((((((((0 : EReal) + μ 0 * s 0) + μ 1 * s 1) + μ 2 * s 2) + μ 3 * s 3) + μ 4 * s 4) + μ 5 * s 5) + μ 6 * s 6)
      + μ 7 * s 7) = s ty := by
  simp only [hμ]
  fin_cases ty <;> simp

end Cert.Spec

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Payload.lean ====
/-
  The kernel body's stored value at one element of its block.

  The body loads a block of 2000 edges: their two embedding rows, their types, the two halves of the first layer's
  weights, its bias, and all of the second layer's weights and bias. It forms the hidden rows (two products into zero
  accumulators, added, plus the bias row, rectified), and then, type by type, the product of the hidden rows with that
  type's 128 columns of the second layer plus that type's bias columns, multiplied by the indicator column "this
  edge has this type", the eight terms accumulated from zero. At row `r`, column `c`, for an edge of type `ty`,
  seven indicators are zero and one is one: the element is the `ty` slice's.
-/
import proofs.«417091_j50955492000255_2_alg».proof.Proof.Gen.KernelIdeal.Skeleton
import proofs.«417091_j50955492000255_2_alg».proof.Proof.Spec
import proofs.«417091_j50955492000255_2_alg».proof.Proof.LibPlainMatmul
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The indicator of "the word is `n`", as the body makes it: the one-bit compare widened and read as a float. -/
theorem indicator_word (x n : BitVec 32) :
    FloatOps.sitofp (F := Ideal) .f32 ((IntOp.cmpi .eq x n).setWidth 32) = if x = n then (1 : EReal) else 0 := by
  show (((((IntOp.cmpi .eq x n).setWidth 32).toInt : ℤ) : ℝ) : EReal) = _
  by_cases h : x = n
  · have e : IntOp.cmpi .eq x n = 1#1 := StableHlo.Predicate.cmpi_eq_iff.mpr h
    have e1 : ((1#1 : BitVec 1).setWidth 32).toInt = 1 := by decide
    rw [e, e1, if_pos h]; norm_num
  · have e : IntOp.cmpi .eq x n = 0#1 := eq_zero_of_ne_one fun h1 => h (StableHlo.Predicate.cmpi_eq_iff.mp h1)
    have e0 : ((0#1 : BitVec 1).setWidth 32).toInt = 0 := by decide
    rw [e, e0, if_neg h]; norm_num

/-- Hidden unit `k` of row `r` of the block. -/
def hid (x0 x1 : Vec Ideal S2000x128 .f32) (x3 x4 : Vec Ideal S128x512 .bf16) (x5 : Vec Ideal S1x512 .f32)
    (r : Fin 2000) (k : Fin 512) : EReal :=
  max (((∑ j : Fin 128, x0 (ix2 r j) * x3 (ix2 j k)) + (∑ j : Fin 128, x1 (ix2 r j) * x4 (ix2 j k)))
    + x5 (ix2 (0 : Fin 1) k)) (Ideal.ofBits .f32 0x00000000#32)

/-- The body's hidden rows at an element. -/
theorem hidden_apply (x0 x1 : Vec Ideal S2000x128 .f32) (x3 x4 : Vec Ideal S128x512 .bf16) (x5 : Vec Ideal S1x512 .f32)
    (r : Fin 2000) (k : Fin 512) :
    k0_pay2 (F := Ideal) x0 x1 x3 x4 x5 (ix2 r k) = hid x0 x1 x3 x4 x5 r k := by
  unfold k0_pay2 hid
  simp only [truncf_apply, maximumf_apply, addf_apply, broadcast_apply, shapeCast_self, broadcastTo_1b_ab_apply,
    Idealize.ShloMosaic.matmul]
  rw [Cert.Lib.PlainMatmul.matmul_zero_apply _ rfl rfl rfl rfl rfl rfl,
    Cert.Lib.PlainMatmul.matmul_zero_apply _ rfl rfl rfl rfl rfl rfl]
  simp only [truncf_apply]
  rfl

/-- The product of the hidden rows with one type's 128 columns, at an element. -/
theorem product_apply (H : FVec Ideal S2000x512 .bf16) (w : FVec Ideal S512x128 .bf16) (r : Fin 2000) (c : Fin 128) :
    FloatOps.matmul dot_S2000x512_S512x128_S2000x128_1_0_0_1_n_n none H w (constant S2000x128 .f32 0x00000000#32) (ix2 r c)
      = ∑ k : Fin 512, H (ix2 r k) * w (ix2 k c) :=
  Cert.Lib.PlainMatmul.matmul_zero_apply _ rfl rfl rfl rfl rfl rfl none H w r c

/-- The indicator column "the edge's type is `n`" broadcast over the 128 columns, at an element. -/
theorem mask_apply (E : IVec S2000x1 32) (n : BitVec 32) (r : Fin 2000) (c : Fin 128) :
    broadcastTo S2000x128 (sitofp (F := Ideal) .f32 (extui 32 (cmpi .eq E (broadcast S2000x1 n)) natLt_1_32))
        broadcasts_S2000x1_S2000x128 (ix2 r c)
      = if E (ix2 r (0 : Fin 1)) = n then (1 : EReal) else 0 := by
  rw [broadcastTo_a1_ab_apply]
  exact indicator_word _ _

/-- THE STORED VALUE AT AN ELEMENT: for an edge of type `ty`, the `ty` slice of the second layer at the hidden row. -/
theorem stored_apply (x0 x1 : Vec Ideal S2000x128 .f32) (x2 : Vec Ideal S2000x1 .i32) (x3 x4 : Vec Ideal S128x512 .bf16)
    (x5 : Vec Ideal S1x512 .f32) (w0 w1 w2 w3 w4 w5 w6 w7 : Vec Ideal S512x128 .bf16)
    (b0 b1 b2 b3 b4 b5 b6 b7 : Vec Ideal S1x128 .f32) (r : Fin 2000) (c : Fin 128) (ty : Fin 8)
    (hty : x2 (ix2 r (0 : Fin 1)) = BitVec.ofNat 32 ty.val) :
    k0_pay1 (F := Ideal) (k0_pay2 x0 x1 x3 x4 x5) (k0_pay3 x2)
        (k0_pay6 (k0_pay2 x0 x1 x3 x4 x5) (k0_pay3 x2)
          (k0_pay5 (k0_pay2 x0 x1 x3 x4 x5) (k0_pay3 x2) (k0_pay4 x0 x1 x3 x4 x5 x2 w0 b0) w1 b1 w2 b2 w3 b3)
          w4 b4 w5 b5 w6 b6) w7 b7 (ix2 r c)
      = (∑ k : Fin 512, hid x0 x1 x3 x4 x5 r k * (![w0, w1, w2, w3, w4, w5, w6, w7] ty) (ix2 k c))
        + (![b0, b1, b2, b3, b4, b5, b6, b7] ty) (ix2 (0 : Fin 1) c) := by
  unfold k0_pay1 k0_pay6 k0_pay5 k0_pay4 k0_pay3
  simp only [shapeCast_self, addf_apply, mulf_apply, broadcast_apply, broadcastTo_1b_ab_apply, mask_apply,
    Idealize.ShloMosaic.matmul, product_apply, hidden_apply, hty]
  fin_cases ty <;> simp [Ideal.ofBits_zero_f32]

end Cert.KernelIdeal.Payload

end
-- ==== Proof.HostVals.lean ====
/-
  What the host operations before the kernel leave in its windows.

  Before its one kernel call the program reshapes the type labels to a column and clamps them into [0, 7], cuts the
  first-layer weights into their upper and lower 128 rows and narrows each half, narrows the second-layer weights, and
  reshapes the two bias vectors to one-row arrays. Over the extended reals a change of float format is the identity, a
  reshape keeps the row-major position, a slice shifts the row by its offset, and the clamp is the identity on a label
  already in [0, 8). So each of these arrays, read at an index, is an input read at the matching index.
-/
import proofs.«417091_j50955492000255_2_alg».proof.Proof.Gen.KernelIdeal.Frame
import proofs.«417091_j50955492000255_2_alg».proof.Proof.Spec
import Idealize.ShloMosaic.Lib.Pipeline.Value
import Idealize.ShloMosaic.Lib.StableHlo.Predicate

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.ValueIdx

/-! ## The layout operations at an index -/

/-- A vector reshaped to one column reads, at row `e`, the vector at `e`: both have row-major position `e`. -/
theorem col_read {α : Type} {n : Nat} (x : (⟨1, ![n]⟩ : Shape).Idx → α)
    (h : (⟨1, ![n]⟩ : Shape).ShapeCasts ⟨2, ![n, 1]⟩) (e : Fin n) :
    shapeCast ⟨2, ![n, 1]⟩ x h (ix2 e (0 : Fin 1)) = x (ix1 e) :=
  shapeCast_apply x h (ix2 e (0 : Fin 1)) (ix1 e) (by
    rw [Shape.rowMajor_val_one, Shape.rowMajor_val_two]
    show e.val = e.val * 1 + 0
    omega)

/-- A vector reshaped to one row reads, at column `k`, the vector at `k`: both have row-major position `k`. -/
theorem row_read {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h (ix2 (0 : Fin 1) k) (ix1 k) (by
    rw [Shape.rowMajor_val_one, Shape.rowMajor_val_two]
    show k.val = 0 * n + k.val
    omega)

/-- Rows [0, 128) of a 256-row array: row `j` of the slice is row `j` of the array. -/
theorem slice_lo_read {α : Type} (x : S256x512.Idx → α) (h : S256x512.Slices ![0, 0] S128x512) (j : Fin 128) (k : Fin 512) :
    extractStridedSlice S128x512 ![0, 0] x h (ix2 j k) = x (ix2 (Cert.Spec.lo j) k) :=
  extractStridedSlice_apply ![0, 0] x h (ix2 j k) (ix2 (Cert.Spec.lo j) k) (fun a =>
    match a with
    | ⟨0, _⟩ => by show j.val = 0 + j.val; omega
    | ⟨1, _⟩ => by show k.val = 0 + k.val; omega)

/-- Rows [128, 256) of a 256-row array: row `j` of the slice is row `128 + j` of the array. -/
theorem slice_hi_read {α : Type} (x : S256x512.Idx → α) (h : S256x512.Slices ![128, 0] S128x512) (j : Fin 128) (k : Fin 512) :
    extractStridedSlice S128x512 ![128, 0] x h (ix2 j k) = x (ix2 (Cert.Spec.hi j) k) :=
  extractStridedSlice_apply ![128, 0] x h (ix2 j k) (ix2 (Cert.Spec.hi j) k) (fun a =>
    match a with
    | ⟨0, _⟩ => by show 128 + j.val = 128 + j.val; rfl
    | ⟨1, _⟩ => by show k.val = 0 + k.val; omega)

/-- The clamp into [0, 7] (the larger of 0 and the word, then the smaller of 7 and that, signed) leaves a word below 8
    as it is: such a word is its own signed value, which is neither below 0 nor above 7. -/
theorem clip_eval (w : BitVec 32) (hw : w.toNat < 8) : IntOp.minsi 7#32 (IntOp.maxsi 0#32 w) = w := by
  have hti : w.toInt = w.toNat := StableHlo.Predicate.toInt_eq_toNat_of_lt (by omega)
  have h0 : (0#32 : BitVec 32).toInt = 0 := by decide
  have h7 : (7#32 : BitVec 32).toInt = 7 := by decide
  have hn0 : ¬ (w.slt 0#32 = true) := by
    simp only [BitVec.slt, hti, h0, decide_eq_true_eq]; omega
  have hmax : IntOp.maxsi 0#32 w = w := by
    unfold IntOp.maxsi
    rw [if_neg hn0]
  rw [hmax]
  have hn7 : ¬ ((7#32 : BitVec 32).slt w = true) := by
    simp only [BitVec.slt, hti, h7, decide_eq_true_eq]; omega
  unfold IntOp.minsi
  rw [if_neg hn7]

/-! ## The arrays the kernel's windows are cut from, as terms over the inputs -/

variable (m : (ℓ : Loc nD τ sig) → Buf (Elt Ideal) ℓ)

/-- The clamped column of type labels. -/
theorem V_et_fun (c : Dev nD) : (V m c main_v1 : S200000x1.Idx → BitVec 32) =
    minsi (broadcastInDim S200000x1 ![] bcast_S_S200000x1 (constantI S_ 32 7#32))
      (maxsi (broadcastInDim S200000x1 ![] bcast_S_S200000x1 (constantI S_ 32 0#32))
        (shapeCast S200000x1 (m ((c : Thread nD τ).loc main_arg2) : S200000.Idx → BitVec 32) shapeCasts_S200000_S200000x1)) := by
  dsimp only [Gen.V]
  simp only [Gen.hostOps0, Gen.hostOps0_1, Gen.hostOps0_2, List.flatten_cons, List.flatten_nil, List.append_nil,
    List.cons_append, List.nil_append]
  after_results
  rfl

/-- The upper half of the first-layer weights, narrowed. -/
theorem V_w1a_fun (c : Dev nD) : (V m c main_v3 : S128x512.Idx → EReal) =
    (truncf (F := Ideal) .bf16 (extractStridedSlice S128x512 ![0, 0] (m ((c : Thread nD τ).loc main_arg3) : FVec Ideal S256x512 .f32)
      slices_S256x512_S128x512_0_0) bitsLt_bf16_f32 : FVec Ideal S128x512 .bf16) := by
  dsimp only [Gen.V]
  simp only [Gen.hostOps0, Gen.hostOps0_1, Gen.hostOps0_2, List.flatten_cons, List.flatten_nil, List.append_nil,
    List.cons_append, List.nil_append]
  after_results

/-- The lower half of the first-layer weights, narrowed. -/
theorem V_w1b_fun (c : Dev nD) : (V m c main_v5 : S128x512.Idx → EReal) =
    (truncf (F := Ideal) .bf16 (extractStridedSlice S128x512 ![128, 0] (m ((c : Thread nD τ).loc main_arg3) : FVec Ideal S256x512 .f32)
      slices_S256x512_S128x512_128_0) bitsLt_bf16_f32 : FVec Ideal S128x512 .bf16) := by
  dsimp only [Gen.V]
  simp only [Gen.hostOps0, Gen.hostOps0_1, Gen.hostOps0_2, List.flatten_cons, List.flatten_nil, List.append_nil,
    List.cons_append, List.nil_append]
  after_results

/-- The second-layer weights, narrowed. -/
theorem V_w2_fun (c : Dev nD) : (V m c main_v6 : S512x1024.Idx → EReal) =
    (truncf (F := Ideal) .bf16 (m ((c : Thread nD τ).loc main_arg5) : FVec Ideal S512x1024 .f32) bitsLt_bf16_f32
      : FVec Ideal S512x1024 .bf16) := by
  dsimp only [Gen.V]
  simp only [Gen.hostOps0, Gen.hostOps0_1, Gen.hostOps0_2, List.flatten_cons, List.flatten_nil, List.append_nil,
    List.cons_append, List.nil_append]
  after_results

/-- The first-layer bias as one row. -/
theorem V_b1_fun (c : Dev nD) : (V m c main_v7 : S1x512.Idx → EReal) =
    shapeCast S1x512 (m ((c : Thread nD τ).loc main_arg4) : S512.Idx → EReal) shapeCasts_S512_S1x512 := by
  dsimp only [Gen.V]
  simp only [Gen.hostOps0, Gen.hostOps0_1, Gen.hostOps0_2, List.flatten_cons, List.flatten_nil, List.append_nil,
    List.cons_append, List.nil_append]
  after_results
  rfl

/-- The second-layer bias as one row. -/
theorem V_b2_fun (c : Dev nD) : (V m c main_v8 : S1x1024.Idx → EReal) =
    shapeCast S1x1024 (m ((c : Thread nD τ).loc main_arg6) : S1024.Idx → EReal) shapeCasts_S1024_S1x1024 := by
  dsimp only [Gen.V]
  simp only [Gen.hostOps0, Gen.hostOps0_1, Gen.hostOps0_2, List.flatten_cons, List.flatten_nil, List.append_nil,
    List.cons_append, List.nil_append]
  after_results
  rfl

/-! ## The same arrays read at an index -/

/-- The clamped label of edge `e` is the label itself when the label is below 8. -/
theorem V_et (c : Dev nD) (e : Fin 200000)
    (h : ((m ((c : Thread nD τ).loc main_arg2) : S200000.Idx → BitVec 32) (ix1 e)).toNat < 8) :
    (V m c main_v1 : S200000x1.Idx → BitVec 32) (ix2 e (0 : Fin 1))
      = (m ((c : Thread nD τ).loc main_arg2) : S200000.Idx → BitVec 32) (ix1 e) := by
  refine (congrFun (V_et_fun m c) (ix2 e (0 : Fin 1))).trans ?_
  show IntOp.minsi 7#32 (IntOp.maxsi 0#32
    (shapeCast S200000x1 (m ((c : Thread nD τ).loc main_arg2) : S200000.Idx → BitVec 32) shapeCasts_S200000_S200000x1
      (ix2 e (0 : Fin 1)))) = _
  rw [col_read]
  exact clip_eval _ h

/-- Row `j` of the upper half of the first-layer weights. -/
theorem V_w1a (c : Dev nD) (j : Fin 128) (k : Fin 512) :
    (V m c main_v3 : S128x512.Idx → EReal) (ix2 j k)
      = (m ((c : Thread nD τ).loc main_arg3) : S256x512.Idx → EReal) (ix2 (Cert.Spec.lo j) k) := by
  refine (congrFun (V_w1a_fun m c) (ix2 j k)).trans ?_
  show extractStridedSlice S128x512 ![0, 0] (m ((c : Thread nD τ).loc main_arg3) : S256x512.Idx → EReal)
    slices_S256x512_S128x512_0_0 (ix2 j k) = _
  exact slice_lo_read _ _ j k

/-- Row `j` of the lower half of the first-layer weights. -/
theorem V_w1b (c : Dev nD) (j : Fin 128) (k : Fin 512) :
    (V m c main_v5 : S128x512.Idx → EReal) (ix2 j k)
      = (m ((c : Thread nD τ).loc main_arg3) : S256x512.Idx → EReal) (ix2 (Cert.Spec.hi j) k) := by
  refine (congrFun (V_w1b_fun m c) (ix2 j k)).trans ?_
  show extractStridedSlice S128x512 ![128, 0] (m ((c : Thread nD τ).loc main_arg3) : S256x512.Idx → EReal)
    slices_S256x512_S128x512_128_0 (ix2 j k) = _
  exact slice_hi_read _ _ j k

/-- The first-layer bias at unit `k`. -/
theorem V_b1 (c : Dev nD) (k : Fin 512) :
    (V m c main_v7 : S1x512.Idx → EReal) (ix2 (0 : Fin 1) k)
      = (m ((c : Thread nD τ).loc main_arg4) : S512.Idx → EReal) (ix1 k) := by
  refine (congrFun (V_b1_fun m c) (ix2 (0 : Fin 1) k)).trans ?_
  exact row_read _ _ k

/-- The second-layer weights at (k, n). -/
theorem V_w2 (c : Dev nD) (k : Fin 512) (n : Fin 1024) :
    (V m c main_v6 : S512x1024.Idx → EReal) (ix2 k n)
      = (m ((c : Thread nD τ).loc main_arg5) : S512x1024.Idx → EReal) (ix2 k n) :=
  congrFun (V_w2_fun m c) (ix2 k n)

/-- The second-layer bias at column `n`. -/
theorem V_b2 (c : Dev nD) (n : Fin 1024) :
    (V m c main_v8 : S1x1024.Idx → EReal) (ix2 (0 : Fin 1) n)
      = (m ((c : Thread nD τ).loc main_arg6) : S1024.Idx → EReal) (ix1 n) := by
  refine (congrFun (V_b2_fun m c) (ix2 (0 : Fin 1) n)).trans ?_
  exact row_read _ _ n

end Cert.KernelIdeal.HostVals

end
-- ==== Proof.Blocks.lean ====
/-
  From the kernel's blocks to its result array.

  The grid has 100 points; point `t` holds edges `2000 t … 2000 t + 1999`: its blocks of the two embeddings and
  of the (clamped) types are those rows, its blocks of the weights and biases are the whole (converted, re-laid)
  arrays, which the host operations before the kernel made from the arguments. Reading each block entry back to
  the argument it came from, the value the body stores at row `r`, column `c` of point `t` is the result function
  at edge `2000 t + r`, column `c`: the hidden rows agree entry by entry, and the slice the indicator selects is the
  slice of the edge's own type (the clamp leaves a type in `[0, 8)` unchanged). Every edge lies in exactly the block
  of point `e / 2000`, so after the run the result array is the result function of the arguments.
-/
import proofs.«417091_j50955492000255_2_alg».proof.Proof.Gen.KernelIdeal.Value
import proofs.«417091_j50955492000255_2_alg».proof.Proof.Payload
import proofs.«417091_j50955492000255_2_alg».proof.Proof.Spec
import proofs.«417091_j50955492000255_2_alg».proof.Proof.HostVals

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 100 points: the three per-edge inputs and the output move with the
    point along the rows; the weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The edge that row `r` of block `t` holds: `2000 · t + r`. -/
def edge (t : Fin cfg0.N) (r : Fin 2000) : Fin 200000 :=
  ⟨t.val * 2000 + r.val, by have ht : t.val < 100 := t.isLt; have := r.isLt; omega⟩

/-! ## The blocks of a point, each at its literal type, read off the arguments -/

abbrev blk0 (c : Dev nD) (t : Fin cfg0.N) : Vec Ideal S2000x128 .f32 := iblk m c 0 t
abbrev blk1 (c : Dev nD) (t : Fin cfg0.N) : Vec Ideal S2000x128 .f32 := iblk m c 1 t
abbrev blk2 (c : Dev nD) (t : Fin cfg0.N) : Vec Ideal S2000x1 .i32 := iblk m c 2 t
abbrev blk3 (c : Dev nD) (t : Fin cfg0.N) : Vec Ideal S128x512 .bf16 := iblk m c 3 t
abbrev blk4 (c : Dev nD) (t : Fin cfg0.N) : Vec Ideal S128x512 .bf16 := iblk m c 4 t
abbrev blk5 (c : Dev nD) (t : Fin cfg0.N) : Vec Ideal S1x512 .f32 := iblk m c 5 t
abbrev blk6 (c : Dev nD) (t : Fin cfg0.N) : Vec Ideal S512x1024 .bf16 := iblk m c 6 t
abbrev blk7 (c : Dev nD) (t : Fin cfg0.N) : Vec Ideal S1x1024 .f32 := iblk m c 7 t

/-- Row `r` of the `from` block at point `t` is the `from` row of edge `2000 t + r`. -/
theorem blk0_apply (c : Dev nD) (t : Fin cfg0.N) (r : Fin 2000) (j : Fin 128) :
    blk0 m c t (ix2 r j) = (m ((c : Thread nD τ).loc main_arg0) : S200000x128.Idx → EReal) (ix2 (edge t r) j) := by
  obtain ⟨e0, e1, -⟩ := idx_facts t
  show (V m c main_arg0 : S200000x128.Idx → EReal) (((cfg0.win 0).blk t).view.emb (ix2 r j)) = _
  rw [V_main_arg0]
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * j.val = j.val; omega

/-- The same for the `to` block. -/
theorem blk1_apply (c : Dev nD) (t : Fin cfg0.N) (r : Fin 2000) (j : Fin 128) :
    blk1 m c t (ix2 r j) = (m ((c : Thread nD τ).loc main_arg1) : S200000x128.Idx → EReal) (ix2 (edge t r) j) := by
  obtain ⟨-, -, e0, e1, -⟩ := idx_facts t
  show (V m c main_arg1 : S200000x128.Idx → EReal) (((cfg0.win 1).blk t).view.emb (ix2 r j)) = _
  rw [V_main_arg1]
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 128 + 1 * j.val = j.val; omega

/-- Row `r` of the type block is the (clamped, here unchanged) type of edge `2000 t + r`. -/
theorem blk2_apply (c : Dev nD) (t : Fin cfg0.N) (r : Fin 2000)
    (h : ((m ((c : Thread nD τ).loc main_arg2) : S200000.Idx → BitVec 32) (ix1 (edge t r))).toNat < 8) :
    blk2 m c t (ix2 r (0 : Fin 1)) = (m ((c : Thread nD τ).loc main_arg2) : S200000.Idx → BitVec 32) (ix1 (edge t r)) := by
  obtain ⟨-, -, -, -, e0, e1, -⟩ := idx_facts t
  refine Eq.trans ?_ (HostVals.V_et m c (edge t r) h)
  show (V m c main_v1 : S200000x1.Idx → BitVec 32) (((cfg0.win 2).blk t).view.emb (ix2 r (0 : Fin 1))) = _
  refine congrArg _ (funext fun a => Fin.ext ?_)
  match a with
  | ⟨0, _⟩ => show win0_2.index t (0 : Fin 2) * 2000 + 1 * r.val = t.val * 2000 + r.val; omega
  | ⟨1, _⟩ => show win0_2.index t (1 : Fin 2) * 1 + 1 * 0 = 0; omega

/-- The first weight block is rows `0 … 127` of `W1`. -/
theorem blk3_apply (c : Dev nD) (t : Fin cfg0.N) (j : Fin 128) (k : Fin 512) :
    blk3 m c t (ix2 j k) = (m ((c : Thread nD τ).loc main_arg3) : S256x512.Idx → EReal) (ix2 (Cert.Spec.lo j) k) := by
  obtain ⟨-, -, -, -, -, -, e0, e1, -⟩ := idx_facts t
  refine Eq.trans ?_ (HostVals.V_w1a m c j k)
  show (V m c main_v3 : S128x512.Idx → EReal) (((cfg0.win 3).blk t).view.emb (ix2 j k)) = _
  refine congrArg _ (funext fun a => Fin.ext ?_)
  match a with
  | ⟨0, _⟩ => show win0_3.index t (0 : Fin 2) * 128 + 1 * j.val = j.val; omega
  | ⟨1, _⟩ => show win0_3.index t (1 : Fin 2) * 512 + 1 * k.val = k.val; omega

/-- The second weight block is rows `128 … 255` of `W1`. -/
theorem blk4_apply (c : Dev nD) (t : Fin cfg0.N) (j : Fin 128) (k : Fin 512) :
    blk4 m c t (ix2 j k) = (m ((c : Thread nD τ).loc main_arg3) : S256x512.Idx → EReal) (ix2 (Cert.Spec.hi j) k) := by
  obtain ⟨-, -, -, -, -, -, -, -, e0, e1, -⟩ := idx_facts t
  refine Eq.trans ?_ (HostVals.V_w1b m c j k)
  show (V m c main_v5 : S128x512.Idx → EReal) (((cfg0.win 4).blk t).view.emb (ix2 j k)) = _
  refine congrArg _ (funext fun a => Fin.ext ?_)
  match a with
  | ⟨0, _⟩ => show win0_4.index t (0 : Fin 2) * 128 + 1 * j.val = j.val; omega
  | ⟨1, _⟩ => show win0_4.index t (1 : Fin 2) * 512 + 1 * k.val = k.val; omega

/-- The first bias row. -/
theorem blk5_apply (c : Dev nD) (t : Fin cfg0.N) (k : Fin 512) :
    blk5 m c t (ix2 (0 : Fin 1) k) = (m ((c : Thread nD τ).loc main_arg4) : S512.Idx → EReal) (ix1 k) := by
  obtain ⟨-, -, -, -, -, -, -, -, -, -, e0, e1, -⟩ := idx_facts t
  refine Eq.trans ?_ (HostVals.V_b1 m c k)
  show (V m c main_v7 : S1x512.Idx → EReal) (((cfg0.win 5).blk t).view.emb (ix2 (0 : Fin 1) k)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

/-- The second layer's weights, whole. -/
theorem blk6_apply (c : Dev nD) (t : Fin cfg0.N) (k : Fin 512) (n : Fin 1024) :
    blk6 m c t (ix2 k n) = (m ((c : Thread nD τ).loc main_arg5) : S512x1024.Idx → EReal) (ix2 k n) := by
  obtain ⟨-, -, -, -, -, -, -, -, -, -, -, -, e0, e1, -⟩ := idx_facts t
  refine Eq.trans ?_ (HostVals.V_w2 m c k n)
  show (V m c main_v6 : S512x1024.Idx → EReal) (((cfg0.win 6).blk t).view.emb (ix2 k n)) = _
  refine congrArg _ (funext fun a => Fin.ext ?_)
  match a with
  | ⟨0, _⟩ => show win0_6.index t (0 : Fin 2) * 512 + 1 * k.val = k.val; omega
  | ⟨1, _⟩ => show win0_6.index t (1 : Fin 2) * 1024 + 1 * n.val = n.val; omega

/-- The second bias row. -/
theorem blk7_apply (c : Dev nD) (t : Fin cfg0.N) (n : Fin 1024) :
    blk7 m c t (ix2 (0 : Fin 1) n) = (m ((c : Thread nD τ).loc main_arg6) : S1024.Idx → EReal) (ix1 n) := by
  obtain ⟨-, -, -, -, -, -, -, -, -, -, -, -, -, -, e0, e1, -⟩ := idx_facts t
  refine Eq.trans ?_ (HostVals.V_b2 m c n)
  show (V m c main_v8 : S1x1024.Idx → EReal) (((cfg0.win 7).blk t).view.emb (ix2 (0 : Fin 1) n)) = _
  refine congrArg _ (funext fun a => Fin.ext ?_)
  match a with
  | ⟨0, _⟩ => show win0_7.index t (0 : Fin 2) * 1 + 1 * 0 = 0; omega
  | ⟨1, _⟩ => show win0_7.index t (1 : Fin 2) * 1024 + 1 * n.val = n.val; omega

/-! ## The eight column slices the body loads -/

/-- The body's `ty`-th load of the second layer's weights is columns `128 ty … 128 ty + 127`. -/
theorem ld_w2 (X : Vec Ideal S512x1024 .bf16) (ty : Fin 8) (k : Fin 512) (cc : Fin 128) :
    (![View.ld X r0_4, View.ld X r0_6, View.ld X r0_8, View.ld X r0_10, View.ld X r0_12, View.ld X r0_14,
        View.ld X r0_16, View.ld X r0_18] ty) (ix2 k cc) = X (ix2 k (Cert.Spec.col ty cc)) := by
  fin_cases ty <;>
  · refine congrArg X (funext fun a => Fin.ext ?_)
    match a with
    | ⟨0, _⟩ => show 0 + 1 * k.val = k.val; omega
    | ⟨1, _⟩ =>
      first
      | (show 0 + 1 * cc.val = 128 * 0 + cc.val; omega)
      | (show 128 + 1 * cc.val = 128 * 1 + cc.val; omega)
      | (show 256 + 1 * cc.val = 128 * 2 + cc.val; omega)
      | (show 384 + 1 * cc.val = 128 * 3 + cc.val; omega)
      | (show 512 + 1 * cc.val = 128 * 4 + cc.val; omega)
      | (show 640 + 1 * cc.val = 128 * 5 + cc.val; omega)
      | (show 768 + 1 * cc.val = 128 * 6 + cc.val; omega)
      | (show 896 + 1 * cc.val = 128 * 7 + cc.val; omega)

/-- The same for the bias columns. -/
theorem ld_b2 (X : Vec Ideal S1x1024 .f32) (ty : Fin 8) (cc : Fin 128) :
    (![View.ld X r0_5, View.ld X r0_7, View.ld X r0_9, View.ld X r0_11, View.ld X r0_13, View.ld X r0_15,
        View.ld X r0_17, View.ld X r0_19] ty) (ix2 (0 : Fin 1) cc) = X (ix2 (0 : Fin 1) (Cert.Spec.col ty cc)) := by
  fin_cases ty <;>
  · refine congrArg X (funext fun a => Fin.ext ?_)
    match a with
    | ⟨0, _⟩ => show 0 + 1 * 0 = 0; omega
    | ⟨1, _⟩ =>
      first
      | (show 0 + 1 * cc.val = 128 * 0 + cc.val; omega)
      | (show 128 + 1 * cc.val = 128 * 1 + cc.val; omega)
      | (show 256 + 1 * cc.val = 128 * 2 + cc.val; omega)
      | (show 384 + 1 * cc.val = 128 * 3 + cc.val; omega)
      | (show 512 + 1 * cc.val = 128 * 4 + cc.val; omega)
      | (show 640 + 1 * cc.val = 128 * 5 + cc.val; omega)
      | (show 768 + 1 * cc.val = 128 * 6 + cc.val; omega)
      | (show 896 + 1 * cc.val = 128 * 7 + cc.val; omega)

/-! ## The body's value at a point is the point's block of the result -/

/-- The arguments' result array on core `c`. -/
abbrev Gm (c : Dev nD) : S200000x128.Idx → EReal :=
  Cert.Spec.G (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg2))

/-- The hidden row of block row `r` is the hidden row of edge `2000 t + r`. -/
theorem hid_eq (c : Dev nD) (t : Fin cfg0.N) (r : Fin 2000) (k : Fin 512) :
    Payload.hid (blk0 m c t) (blk1 m c t) (blk3 m c t) (blk4 m c t) (blk5 m c t) r k
      = Cert.Spec.hidden (m ((c : Thread nD τ).loc main_arg0)) (m ((c : Thread nD τ).loc main_arg1))
          (m ((c : Thread nD τ).loc main_arg3)) (m ((c : Thread nD τ).loc main_arg4)) (edge t r) k := by
  unfold Payload.hid Cert.Spec.hidden
  simp only [blk0_apply, blk1_apply, blk3_apply, blk4_apply, blk5_apply]

/-- A word below eight is the word of its own residue modulo eight. -/
theorem ofNat_tyOf (w : BitVec 32) (h : w.toNat < 8) : w = BitVec.ofNat 32 (w.toNat % 8) := by
  apply BitVec.eq_of_toNat_eq
  rw [BitVec.toNat_ofNat, Nat.mod_eq_of_lt h]
  exact (Nat.mod_eq_of_lt (by omega)).symm

/-- WHAT THE BODY STORES at row `r`, column `cc` of point `t`: the result at edge `2000 t + r`, column `cc`. -/
theorem stored_pt (c : Dev nD)
    (het : ∀ e : Fin 200000, ((m ((c : Thread nD τ).loc main_arg2) : S200000.Idx → BitVec 32) (ix1 e)).toNat < 8)
    (t : Fin cfg0.N) (r : Fin 2000) (cc : Fin 128) :
    k0_pay1 (F := Ideal) (k0_pay2 (blk0 m c t) (blk1 m c t) (blk3 m c t) (blk4 m c t) (blk5 m c t)) (k0_pay3 (blk2 m c t))
        (k0_pay6 (k0_pay2 (blk0 m c t) (blk1 m c t) (blk3 m c t) (blk4 m c t) (blk5 m c t)) (k0_pay3 (blk2 m c t))
          (k0_pay5 (k0_pay2 (blk0 m c t) (blk1 m c t) (blk3 m c t) (blk4 m c t) (blk5 m c t)) (k0_pay3 (blk2 m c t))
            (k0_pay4 (blk0 m c t) (blk1 m c t) (blk3 m c t) (blk4 m c t) (blk5 m c t) (blk2 m c t)
              (View.ld (blk6 m c t) r0_4) (View.ld (blk7 m c t) r0_5))
            (View.ld (blk6 m c t) r0_6) (View.ld (blk7 m c t) r0_7) (View.ld (blk6 m c t) r0_8) (View.ld (blk7 m c t) r0_9)
            (View.ld (blk6 m c t) r0_10) (View.ld (blk7 m c t) r0_11))
          (View.ld (blk6 m c t) r0_12) (View.ld (blk7 m c t) r0_13) (View.ld (blk6 m c t) r0_14) (View.ld (blk7 m c t) r0_15)
          (View.ld (blk6 m c t) r0_16) (View.ld (blk7 m c t) r0_17))
        (View.ld (blk6 m c t) r0_18) (View.ld (blk7 m c t) r0_19) (ix2 r cc)
      = Gm m c (ix2 (edge t r) cc) := by
  have hty : blk2 m c t (ix2 r (0 : Fin 1))
      = BitVec.ofNat 32 (Cert.Spec.tyOf (m ((c : Thread nD τ).loc main_arg2)) (edge t r)).val :=
    (blk2_apply m c t r (het (edge t r))).trans (ofNat_tyOf _ (het (edge t r)))
  have h1 := Payload.stored_apply (blk0 m c t) (blk1 m c t) (blk2 m c t) (blk3 m c t) (blk4 m c t) (blk5 m c t)
    (View.ld (blk6 m c t) r0_4) (View.ld (blk6 m c t) r0_6) (View.ld (blk6 m c t) r0_8) (View.ld (blk6 m c t) r0_10)
    (View.ld (blk6 m c t) r0_12) (View.ld (blk6 m c t) r0_14) (View.ld (blk6 m c t) r0_16) (View.ld (blk6 m c t) r0_18)
    (View.ld (blk7 m c t) r0_5) (View.ld (blk7 m c t) r0_7) (View.ld (blk7 m c t) r0_9) (View.ld (blk7 m c t) r0_11)
    (View.ld (blk7 m c t) r0_13) (View.ld (blk7 m c t) r0_15) (View.ld (blk7 m c t) r0_17) (View.ld (blk7 m c t) r0_19)
    r cc (Cert.Spec.tyOf (m ((c : Thread nD τ).loc main_arg2)) (edge t r)) hty
  have h2 : ∀ k : Fin 512,
      Payload.hid (blk0 m c t) (blk1 m c t) (blk3 m c t) (blk4 m c t) (blk5 m c t) r k
        * (![View.ld (blk6 m c t) r0_4, View.ld (blk6 m c t) r0_6, View.ld (blk6 m c t) r0_8, View.ld (blk6 m c t) r0_10,
            View.ld (blk6 m c t) r0_12, View.ld (blk6 m c t) r0_14, View.ld (blk6 m c t) r0_16, View.ld (blk6 m c t) r0_18]
            (Cert.Spec.tyOf (m ((c : Thread nD τ).loc main_arg2)) (edge t r))) (ix2 k cc)
      = Cert.Spec.hidden (m ((c : Thread nD τ).loc main_arg0)) (m ((c : Thread nD τ).loc main_arg1))
          (m ((c : Thread nD τ).loc main_arg3)) (m ((c : Thread nD τ).loc main_arg4)) (edge t r) k
        * (m ((c : Thread nD τ).loc main_arg5) : S512x1024.Idx → EReal)
            (ix2 k (Cert.Spec.col (Cert.Spec.tyOf (m ((c : Thread nD τ).loc main_arg2)) (edge t r)) cc)) := by
    intro k
    rw [hid_eq, ld_w2, blk6_apply]
  have h3 : (![View.ld (blk7 m c t) r0_5, View.ld (blk7 m c t) r0_7, View.ld (blk7 m c t) r0_9, View.ld (blk7 m c t) r0_11,
        View.ld (blk7 m c t) r0_13, View.ld (blk7 m c t) r0_15, View.ld (blk7 m c t) r0_17, View.ld (blk7 m c t) r0_19]
        (Cert.Spec.tyOf (m ((c : Thread nD τ).loc main_arg2)) (edge t r))) (ix2 (0 : Fin 1) cc)
      = (m ((c : Thread nD τ).loc main_arg6) : S1024.Idx → EReal)
          (ix1 (Cert.Spec.col (Cert.Spec.tyOf (m ((c : Thread nD τ).loc main_arg2)) (edge t r)) cc)) := by
    rw [ld_b2, blk7_apply]
  exact h1.trans (congrArg₂ (· + ·) (Finset.sum_congr rfl fun k _ => h2 k) h3)

/-- WHAT POINT `t` WRITES BACK is block `t` of the result array. -/
theorem flushed_eq (c : Dev nD)
    (het : ∀ e : Fin 200000, ((m ((c : Thread nD τ).loc main_arg2) : S200000.Idx → BitVec 32) (ix1 e)).toNat < 8)
    (t : Fin cfg0.N) :
    (dats m 0 c).flushed 8 t = ((cfg0.win 8).blk t).view.read (Elt Ideal) (Gm m c) := by
  rw [Value.flushed8]
  unfold out0_8
  rw [View.canon_unit_zero hz]
  simp only [View.ld_unit_zero (S := S2000x128) hz, View.ld_unit_zero (S := S128x512) hz, View.ld_unit_zero (S := S1x512) hz,
    View.ld_unit_zero (S := S2000x1) hz]
  obtain ⟨-, -, -, -, -, -, -, -, -, -, -, -, -, -, -, -, e0, e1⟩ := idx_facts t
  funext j
  obtain ⟨r, cc, rfl⟩ : ∃ (r : Fin 2000) (cc : Fin 128), j = ix2 r cc := ⟨j 0, j 1, eq_ix2 j⟩
  refine (stored_pt m c het t r cc).trans ?_
  show Gm m c (ix2 (edge t r) cc) = Gm m c (((cfg0.win 8).blk t).view.emb (ix2 r cc))
  refine congrArg _ (funext fun a => Fin.ext ?_)
  match a with
  | ⟨0, _⟩ => show t.val * 2000 + r.val = win0_8.index t (0 : Fin 2) * 2000 + 1 * r.val; omega
  | ⟨1, _⟩ => show cc.val = win0_8.index t (1 : Fin 2) * 128 + 1 * cc.val; omega

/-! ## Every element of the result array is in some point's block -/

/-- An index of the array is in point `t`'s block iff each coordinate is in the block's range on its axis. -/
theorem mem_blk (t : Fin cfg0.N) (i : S200000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v9).slice (win0_8.rect t)).set ↔ _
  rw [View.set_slice_whole, Rect.mem_set_unit]
  exact Iff.rfl

/-- Edge `e` lies in the block of point `e / 2000`. -/
theorem cover (i : S200000x128.Idx) : ∃ t : Fin cfg0.N, (cfg0.win 8).flush t = true ∧ i ∈ ((cfg0.win 8).blk t).view.set := by
  have hi0 : (i 0).val < 200000 := (i 0).isLt
  have hi1 : (i 1).val < 128 := (i 1).isLt
  let t : Fin cfg0.N := ⟨(i 0).val / 2000, by show (i 0).val / 2000 < 100; omega⟩
  obtain ⟨-, -, -, -, -, -, -, -, -, -, -, -, -, -, -, -, e0, e1⟩ := idx_facts t
  have ht : t.val = (i 0).val / 2000 := rfl
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-- THE RESULT ARRAY after the run is the result function of the arguments. -/
theorem final (c : Dev nD)
    (het : ∀ e : Fin 200000, ((m ((c : Thread nD τ).loc main_arg2) : S200000.Idx → BitVec 32) (ix1 e)).toNat < 8) :
    (dats m 0 c).arrAt 8 cfg0.N = Gm m c :=
  (dats m 0 c).arrAt_eq_of_cover 8 (Gm m c) (fun t _ => flushed_eq m c het t) cover

/-- The kernel's run, read: the result array holds the result function of the arguments, which are unchanged. -/
theorem run
    (het : ∀ (c : Dev nD) (e : Fin 200000), ((m ((c : Thread nD τ).loc main_arg2) : S200000.Idx → BitVec 32) (ix1 e)).toNat < 8) :
    θ_run defs (onTc (τ := τ) (main (F := Ideal))) ⟨m, fun _ => 0, ρ⟩ fun r => ∀ c : Dev nD,
      r.2.mem ((c : Thread nD τ).loc main_v9) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (het c)), (h c).2⟩) (Value.run_blocks m ρ)

end Cert.KernelIdeal.Blocks
end
-- ==== Proof.PreDecode.lean ====
/-
  The precondition decoded on the type labels.

  The precondition is a conjunction of eight scalar bits: six say that each float input is finite everywhere, and
  the last two say that every type label is at least 0 and below 8, as signed 32-bit words. Each of the two is a
  reduction by "and", from 1, of the array of comparison bits, so if the conjunction is 1 then every comparison bit is 1:
  at every edge `e` the label `w = et e` has `0 ≤ w` and `w < 8` signed. A word whose signed value is not negative has its
  top bit clear, so its signed and unsigned values agree, and the unsigned value is below 8.
-/
import proofs.«417091_j50955492000255_2_alg».proof.Pre_finite_inputs
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx Cert.Pre_finite_inputs

/-- The scalar shape has one index. -/
instance subsingleton_scalar_idx : Subsingleton S_.Idx := ⟨fun a b => funext fun d => d.elim0⟩

/-- A 32-bit word that is at least 0 and below 8 as a signed number is below 8 as an unsigned one. -/
theorem toNat_lt_eight (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hw := w.isLt
  rw [BitVec.toInt_eq_toNat_cond] at h0 h8
  split at h0 <;> omega

/-- THE PRECONDITION DECODED: every type label is below 8. -/
theorem et_lt_of_pre [Cert.Pre_finite_inputs.Facts] (a0 a1 : FVec Ideal S200000x128 .f32) (a2 : IVec S200000 32)
    (a3 : FVec Ideal S256x512 .f32) (a4 : FVec Ideal S512 .f32) (a5 : FVec Ideal S512x1024 .f32) (a6 : FVec Ideal S1024 .f32)
    (h : Cert.Pre_finite_inputs.fn (F := Ideal) a0 a1 a2 a3 a4 a5 a6 = (fun _ => 1#1)) :
    ∀ e : Fin 200000, (a2 (ix1 e)).toNat < 8 := by
  intro e
  have h0 := congrFun h ValueIdx.ix0
  unfold Cert.Pre_finite_inputs.fn at h0
  dsimp only at h0
  unfold Cert.Pre_finite_inputs.fn_part1 at h0
  dsimp only at h0
  unfold Cert.Pre_finite_inputs.fn_part2 at h0
  dsimp only at h0
  -- the conjunction of eight bits is 1: its last two conjuncts are
  obtain ⟨h1, hlt⟩ := IntOp.andi_eq_one.1 h0
  obtain ⟨-, hge⟩ := IntOp.andi_eq_one.1 h1
  -- each is an "and" over all edges of a comparison bit: the bit at edge e is 1
  have hge' := Host.reduce_andi_all _ _ _ _ _ hge (ix1 e)
  have hlt' := Host.reduce_andi_all _ _ _ _ _ hlt (ix1 e)
  exact toNat_lt_eight (a2 (ix1 e)) hge' hlt'

end Cert.PreDecode

end
-- ==== Proof.RefRun.lean ====
/-
  The reference's run.

  The reference is a straight line of 43 whole-array operations: the two embedding arrays joined along the
  feature axis, the first affine layer and its rectifier, the second affine layer (all 1024 columns), the integer
  column index `128 · type + c`, and the row-wise lookup of that column: an index below zero is moved up by 1024,
  the lookup reads the column clamped into `[0, 1023]`, and an entry whose index is outside `[0, 1023]` is replaced
  by a not-a-number constant.

  The line is cut into three stretches — the float layers (12 operations), the index (9), the lookup (22) — and
  each stretch is read from ANY contents `W` of the buffers: the one buffer it hands on holds a named stage of
  the contents it started from, and the buffers it does not write keep theirs. Chained, the result buffer holds
  `result` of the seven arguments, and the arguments are unchanged.
-/
import proofs.«417091_j50955492000255_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The two embedding rows side by side: 256 features per edge. -/
def cat (x0 x1 : FVec F S200000x128 .f32) : FVec F S200000x256 .f32 :=
  concatenate S200000x256 1 [⟨S200000x128, x0⟩, ⟨S200000x128, x1⟩] concatenates_S200000x128_S200000x128_S200000x256_d1

/-- The first layer before its rectifier: the joined row against `W1`, plus the bias along the rows. -/
def pre (x0 x1 : FVec F S200000x128 .f32) (x3 : FVec F S256x512 .f32) (x4 : FVec F S512 .f32) : FVec F S200000x512 .f32 :=
  addf (Host.dotGeneral dot_S200000x256_S256x512_S200000x512_1_0_0_1_n_n none (cat x0 x1) x3)
    (broadcastInDim S200000x512 ![0, 1] bcast_S1x512_S200000x512_0_1 (broadcastInDim S1x512 ![1] bcast_S512_S1x512_1 x4))

/-- The hidden layer: the maximum with zero. -/
def hid (x0 x1 : FVec F S200000x128 .f32) (x3 : FVec F S256x512 .f32) (x4 : FVec F S512 .f32) : FVec F S200000x512 .f32 :=
  maximumf (pre x0 x1 x3 x4) (broadcastInDim S200000x512 ![] bcast_S_S200000x512 (constant S_ .f32 0x00000000#32))

/-- The second layer, all 1024 columns: the hidden row against `W2`, plus the bias along the rows. -/
def lay (x0 x1 : FVec F S200000x128 .f32) (x3 : FVec F S256x512 .f32) (x4 : FVec F S512 .f32) (x5 : FVec F S512x1024 .f32)
    (x6 : FVec F S1024 .f32) : FVec F S200000x1024 .f32 :=
  addf (Host.dotGeneral dot_S200000x512_S512x1024_S200000x1024_1_0_0_1_n_n none (hid x0 x1 x3 x4) x5)
    (broadcastInDim S200000x1024 ![0, 1] bcast_S1x1024_S200000x1024_0_1 (broadcastInDim S1x1024 ![1] bcast_S1024_S1x1024_1 x6))

/-- The column index of entry `(e, c)`: `type e · 128 + c`, in 32-bit words. -/
def idx (x2 : IVec S200000 32) : IVec S200000x128 32 :=
  addi
    (broadcastInDim S200000x128 ![0, 1] bcast_S200000x1_S200000x128_0_1
      (muli (broadcastInDim S200000x1 ![0] bcast_S200000_S200000x1_0 x2)
        (broadcastInDim S200000x1 ![] bcast_S_S200000x1 (constantI S_ 32 128#32))))
    (broadcastInDim S200000x128 ![0, 1] bcast_S1x128_S200000x128_0_1
      (broadcastInDim S1x128 ![1] bcast_S128_S1x128_1 (iotaInDim S128 32 0)))

/-- The index with a negative one moved up by 1024, as a column of one-word index vectors. -/
def wrap (j : IVec S200000x128 32) : IVec S200000x128x1 32 :=
  shapeCast S200000x128x1
    (select (cmpi .slt j (broadcastInDim S200000x128 ![] bcast_S_S200000x128 (constantI S_ 32 0#32)))
      (addi j (broadcastInDim S200000x128 ![] bcast_S_S200000x128 (constantI S_ 32 1024#32))) j)
    shapeCasts_S200000x128_S200000x128x1

/-- Which entries have their index inside `[0, 1023]`: the conjunction over the (one-word) index vector. -/
def inRange (w : IVec S200000x128x1 32) : IVec S200000x128 1 :=
  Host.reduce IntOp.andi
    (andi (cmpi .sge w (broadcastInDim S200000x128x1 ![] bcast_S_S200000x128x1 (constantI S_ 32 0#32)))
      (cmpi .sle w (broadcastInDim S200000x128x1 ![0, 1, 2] bcast_S1x1x1_S200000x128x1_0_1_2
        (broadcastInDim S1x1x1 ![2] bcast_S1_S1x1x1_2 (constantI S1 32 1023#32)))))
    (constantI S_ 1 1#1) reducesTo_S200000x128x1_S200000x128_d2 h_S_

/-- The row-wise lookup: entry `(e, c)` is `v` at row `e` and the column `j (e, c)` names, the not-a-number constant
    where that index is out of range. -/
def take (v : FVec F S200000x1024 .f32) (j : IVec S200000x128 32) : FVec F S200000x128 .f32 :=
  select (inRange (wrap j)) (Host.gather gather_S200000x1024_S200000x128x1_S200000x128_n_1_0_0_1_2_11 v (wrap j))
    (broadcastInDim S200000x128 ![] bcast_S_S200000x128 (constant S_ .f32 0x7FC00000#32))

/-- The reference's result as a function of its seven arguments. -/
def result (x0 x1 : FVec F S200000x128 .f32) (x2 : IVec S200000 32) (x3 : FVec F S256x512 .f32) (x4 : FVec F S512 .f32)
    (x5 : FVec F S512x1024 .f32) (x6 : FVec F S1024 .f32) : FVec F S200000x128 .f32 :=
  take (lay x0 x1 x3 x4 x5 x6) (idx x2)

/-! ## The operations -/

/-- The float layers: the operations that end in the second layer's full row. -/
abbrev ops1 : List (HloOp τ sig (Elt F)) :=
  [ binary main_arg0 main_arg1 main_v0 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v0 main_arg3 main_v1 ((fun l r => Host.dotGeneral dot_S200000x256_S256x512_S200000x512_1_0_0_1_n_n none l r) : (⟨S200000x256, .f32⟩ : BufTy).Contents (Elt F) → (⟨S256x512, .f32⟩ : BufTy).Contents (Elt F) → (⟨S200000x512, .f32⟩ : BufTy).Contents (Elt F)),
    unary main_arg4 main_v2 (broadcastInDim S1x512 ![1] bcast_S512_S1x512_1 : (⟨S512, .f32⟩ : BufTy).Contents (Elt F) → (⟨S1x512, .f32⟩ : BufTy).Contents (Elt F)),
    unary main_v2 main_v3 (broadcastInDim S200000x512 ![0, 1] bcast_S1x512_S200000x512_0_1 : (⟨S1x512, .f32⟩ : BufTy).Contents (Elt F) → (⟨S200000x512, .f32⟩ : BufTy).Contents (Elt F)),
    binary main_v1 main_v3 main_v4 (addf : (⟨S200000x512, .f32⟩ : BufTy).Contents (Elt F) → (⟨S200000x512, .f32⟩ : BufTy).Contents (Elt F) → (⟨S200000x512, .f32⟩ : BufTy).Contents (Elt F)),
    nullary main_call0_cst (constant S_ .f32 0x00000000#32),
    unary main_call0_cst main_call0_v0 (broadcastInDim S200000x512 ![] bcast_S_S200000x512 : (⟨S_, .f32⟩ : BufTy).Contents (Elt F) → (⟨S200000x512, .f32⟩ : BufTy).Contents (Elt F)),
    binary main_v4 main_call0_v0 main_v5 (maximumf : (⟨S200000x512, .f32⟩ : BufTy).Contents (Elt F) → (⟨S200000x512, .f32⟩ : BufTy).Contents (Elt F) → (⟨S200000x512, .f32⟩ : BufTy).Contents (Elt F)),
    binary main_v5 main_arg5 main_v6 ((fun l r => Host.dotGeneral dot_S200000x512_S512x1024_S200000x1024_1_0_0_1_n_n none l r) : (⟨S200000x512, .f32⟩ : BufTy).Contents (Elt F) → (⟨S512x1024, .f32⟩ : BufTy).Contents (Elt F) → (⟨S200000x1024, .f32⟩ : BufTy).Contents (Elt F)),
    unary main_arg6 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S200000x1024 ![0, 1] bcast_S1x1024_S200000x1024_0_1 : (⟨S1x1024, .f32⟩ : BufTy).Contents (Elt F) → (⟨S200000x1024, .f32⟩ : BufTy).Contents (Elt F)),
    binary main_v6 main_v8 main_v9 (addf : (⟨S200000x1024, .f32⟩ : BufTy).Contents (Elt F) → (⟨S200000x1024, .f32⟩ : BufTy).Contents (Elt F) → (⟨S200000x1024, .f32⟩ : BufTy).Contents (Elt F)) ]

/-- The index: the operations that end in `type · 128 + c`. -/
abbrev ops2 : List (HloOp τ sig (Elt F)) :=
  [ unary main_arg2 main_v10 (broadcastInDim S200000x1 ![0] bcast_S200000_S200000x1_0 : (⟨S200000, .i32⟩ : BufTy).Contents (Elt F) → (⟨S200000x1, .i32⟩ : BufTy).Contents (Elt F)),
    nullary main_c (constantI S_ 32 128#32),
    unary main_c main_v11 (broadcastInDim S200000x1 ![] bcast_S_S200000x1 : (⟨S_, .i32⟩ : BufTy).Contents (Elt F) → (⟨S200000x1, .i32⟩ : BufTy).Contents (Elt F)),
    binary main_v10 main_v11 main_v12 (muli : (⟨S200000x1, .i32⟩ : BufTy).Contents (Elt F) → (⟨S200000x1, .i32⟩ : BufTy).Contents (Elt F) → (⟨S200000x1, .i32⟩ : BufTy).Contents (Elt F)),
    nullary main_v13 (iotaInDim S128 32 0),
    unary main_v13 main_v14 (broadcastInDim S1x128 ![1] bcast_S128_S1x128_1 : (⟨S128, .i32⟩ : BufTy).Contents (Elt F) → (⟨S1x128, .i32⟩ : BufTy).Contents (Elt F)),
    unary main_v12 main_v15 (broadcastInDim S200000x128 ![0, 1] bcast_S200000x1_S200000x128_0_1 : (⟨S200000x1, .i32⟩ : BufTy).Contents (Elt F) → (⟨S200000x128, .i32⟩ : BufTy).Contents (Elt F)),
    unary main_v14 main_v16 (broadcastInDim S200000x128 ![0, 1] bcast_S1x128_S200000x128_0_1 : (⟨S1x128, .i32⟩ : BufTy).Contents (Elt F) → (⟨S200000x128, .i32⟩ : BufTy).Contents (Elt F)),
    binary main_v15 main_v16 main_v17 (addi : (⟨S200000x128, .i32⟩ : BufTy).Contents (Elt F) → (⟨S200000x128, .i32⟩ : BufTy).Contents (Elt F) → (⟨S200000x128, .i32⟩ : BufTy).Contents (Elt F)) ]

/-- The lookup: the operations of the row-wise lookup, ending in the result. -/
abbrev ops3 : List (HloOp τ sig (Elt F)) :=
  [ nullary main_call1_c (constantI S_ 32 0#32),
    unary main_call1_c main_call1_v0 (broadcastInDim S200000x128 ![] bcast_S_S200000x128 : (⟨S_, .i32⟩ : BufTy).Contents (Elt F) → (⟨S200000x128, .i32⟩ : BufTy).Contents (Elt F)),
    binary main_v17 main_call1_v0 main_call1_v1 (cmpi .slt : (⟨S200000x128, .i32⟩ : BufTy).Contents (Elt F) → (⟨S200000x128, .i32⟩ : BufTy).Contents (Elt F) → (⟨S200000x128, .i1⟩ : BufTy).Contents (Elt F)),
    nullary main_call1_c_0 (constantI S_ 32 1024#32),
    unary main_call1_c_0 main_call1_v2 (broadcastInDim S200000x128 ![] bcast_S_S200000x128 : (⟨S_, .i32⟩ : BufTy).Contents (Elt F) → (⟨S200000x128, .i32⟩ : BufTy).Contents (Elt F)),
    binary main_v17 main_call1_v2 main_call1_v3 (addi : (⟨S200000x128, .i32⟩ : BufTy).Contents (Elt F) → (⟨S200000x128, .i32⟩ : BufTy).Contents (Elt F) → (⟨S200000x128, .i32⟩ : BufTy).Contents (Elt F)),
    ternary main_call1_v1 main_call1_v3 main_v17 main_call1_v4 (select : (⟨S200000x128, .i1⟩ : BufTy).Contents (Elt F) → (⟨S200000x128, .i32⟩ : BufTy).Contents (Elt F) → (⟨S200000x128, .i32⟩ : BufTy).Contents (Elt F) → (⟨S200000x128, .i32⟩ : BufTy).Contents (Elt F)),
    reshape main_call1_v4 main_call1_v5 rfl shapeCasts_S200000x128_S200000x128x1,
    nullary main_call1_c_1 (constantI S1 32 1023#32),
    nullary main_call1_c_2 (constantI S_ 32 0#32),
    unary main_call1_c_2 main_call1_v6 (broadcastInDim S200000x128x1 ![] bcast_S_S200000x128x1 : (⟨S_, .i32⟩ : BufTy).Contents (Elt F) → (⟨S200000x128x1, .i32⟩ : BufTy).Contents (Elt F)),
    binary main_call1_v5 main_call1_v6 main_call1_v7 (cmpi .sge : (⟨S200000x128x1, .i32⟩ : BufTy).Contents (Elt F) → (⟨S200000x128x1, .i32⟩ : BufTy).Contents (Elt F) → (⟨S200000x128x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S200000x128x1 ![0, 1, 2] bcast_S1x1x1_S200000x128x1_0_1_2 : (⟨S1x1x1, .i32⟩ : BufTy).Contents (Elt F) → (⟨S200000x128x1, .i32⟩ : BufTy).Contents (Elt F)),
    binary main_call1_v5 main_call1_v9 main_call1_v10 (cmpi .sle : (⟨S200000x128x1, .i32⟩ : BufTy).Contents (Elt F) → (⟨S200000x128x1, .i32⟩ : BufTy).Contents (Elt F) → (⟨S200000x128x1, .i1⟩ : BufTy).Contents (Elt F)),
    binary main_call1_v7 main_call1_v10 main_call1_v11 (andi : (⟨S200000x128x1, .i1⟩ : BufTy).Contents (Elt F) → (⟨S200000x128x1, .i1⟩ : BufTy).Contents (Elt F) → (⟨S200000x128x1, .i1⟩ : BufTy).Contents (Elt F)),
    nullary main_call1_c_3 (constantI S_ 1 1#1),
    binary main_call1_v11 main_call1_c_3 main_call1_v12 ((fun x v => Host.reduce IntOp.andi x v reducesTo_S200000x128x1_S200000x128_d2 h_S_) : (⟨S200000x128x1, .i1⟩ : BufTy).Contents (Elt F) → (⟨S_, .i1⟩ : BufTy).Contents (Elt F) → (⟨S200000x128, .i1⟩ : BufTy).Contents (Elt F)),
    binary main_v9 main_call1_v5 main_call1_v13 ((fun x i => Host.gather gather_S200000x1024_S200000x128x1_S200000x128_n_1_0_0_1_2_11 x i) : (⟨S200000x1024, .f32⟩ : BufTy).Contents (Elt F) → (⟨S200000x128x1, .i32⟩ : BufTy).Contents (Elt F) → (⟨S200000x128, .f32⟩ : BufTy).Contents (Elt F)),
    nullary main_call1_cst (constant S_ .f32 0x7FC00000#32),
    unary main_call1_cst main_call1_v14 (broadcastInDim S200000x128 ![] bcast_S_S200000x128 : (⟨S_, .f32⟩ : BufTy).Contents (Elt F) → (⟨S200000x128, .f32⟩ : BufTy).Contents (Elt F)),
    ternary main_call1_v12 main_call1_v13 main_call1_v14 main_v18 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) ]

/-- The whole line. -/
abbrev ops : List (HloOp τ sig (Elt F)) := ops1 ++ (ops2 ++ ops3)

/-- The whole line as the program spells it: a called function's operations are stated over references that carry
    their value's type, and move each value to and from its buffer's own type (the identity at these references). -/
abbrev opsT : List (HloOp τ sig (Elt F)) :=
  [ binary main_arg0 main_arg1 main_v0 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)),
    binary main_v0 main_arg3 main_v1 ((fun l r => Host.dotGeneral dot_S200000x256_S256x512_S200000x512_1_0_0_1_n_n none l r) : (⟨S200000x256, .f32⟩ : BufTy).Contents (Elt F) → (⟨S256x512, .f32⟩ : BufTy).Contents (Elt F) → (⟨S200000x512, .f32⟩ : BufTy).Contents (Elt F)),
    unary main_arg4 main_v2 (broadcastInDim S1x512 ![1] bcast_S512_S1x512_1 : (⟨S512, .f32⟩ : BufTy).Contents (Elt F) → (⟨S1x512, .f32⟩ : BufTy).Contents (Elt F)),
    unary main_v2 main_v3 (broadcastInDim S200000x512 ![0, 1] bcast_S1x512_S200000x512_0_1 : (⟨S1x512, .f32⟩ : BufTy).Contents (Elt F) → (⟨S200000x512, .f32⟩ : BufTy).Contents (Elt F)),
    binary main_v1 main_v3 main_v4 (addf : (⟨S200000x512, .f32⟩ : BufTy).Contents (Elt F) → (⟨S200000x512, .f32⟩ : BufTy).Contents (Elt F) → (⟨S200000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x512, .f32⟩) main_call0_v0) (broadcastInDim S200000x512 ![] bcast_S_S200000x512),
    TRef.binary (TRef.of (T := ⟨S200000x512, .f32⟩) main_v4) (TRef.of (T := ⟨S200000x512, .f32⟩) main_call0_v0) (TRef.of (T := ⟨S200000x512, .f32⟩) main_v5) maximumf,
    binary main_v5 main_arg5 main_v6 ((fun l r => Host.dotGeneral dot_S200000x512_S512x1024_S200000x1024_1_0_0_1_n_n none l r) : (⟨S200000x512, .f32⟩ : BufTy).Contents (Elt F) → (⟨S512x1024, .f32⟩ : BufTy).Contents (Elt F) → (⟨S200000x1024, .f32⟩ : BufTy).Contents (Elt F)),
    unary main_arg6 main_v7 (broadcastInDim S1x1024 ![1] bcast_S1024_S1x1024_1 : (⟨S1024, .f32⟩ : BufTy).Contents (Elt F) → (⟨S1x1024, .f32⟩ : BufTy).Contents (Elt F)),
    unary main_v7 main_v8 (broadcastInDim S200000x1024 ![0, 1] bcast_S1x1024_S200000x1024_0_1 : (⟨S1x1024, .f32⟩ : BufTy).Contents (Elt F) → (⟨S200000x1024, .f32⟩ : BufTy).Contents (Elt F)),
    binary main_v6 main_v8 main_v9 (addf : (⟨S200000x1024, .f32⟩ : BufTy).Contents (Elt F) → (⟨S200000x1024, .f32⟩ : BufTy).Contents (Elt F) → (⟨S200000x1024, .f32⟩ : BufTy).Contents (Elt F)),
    unary main_arg2 main_v10 (broadcastInDim S200000x1 ![0] bcast_S200000_S200000x1_0 : (⟨S200000, .i32⟩ : BufTy).Contents (Elt F) → (⟨S200000x1, .i32⟩ : BufTy).Contents (Elt F)),
    nullary main_c (constantI S_ 32 128#32),
    unary main_c main_v11 (broadcastInDim S200000x1 ![] bcast_S_S200000x1 : (⟨S_, .i32⟩ : BufTy).Contents (Elt F) → (⟨S200000x1, .i32⟩ : BufTy).Contents (Elt F)),
    binary main_v10 main_v11 main_v12 (muli : (⟨S200000x1, .i32⟩ : BufTy).Contents (Elt F) → (⟨S200000x1, .i32⟩ : BufTy).Contents (Elt F) → (⟨S200000x1, .i32⟩ : BufTy).Contents (Elt F)),
    nullary main_v13 (iotaInDim S128 32 0),
    unary main_v13 main_v14 (broadcastInDim S1x128 ![1] bcast_S128_S1x128_1 : (⟨S128, .i32⟩ : BufTy).Contents (Elt F) → (⟨S1x128, .i32⟩ : BufTy).Contents (Elt F)),
    unary main_v12 main_v15 (broadcastInDim S200000x128 ![0, 1] bcast_S200000x1_S200000x128_0_1 : (⟨S200000x1, .i32⟩ : BufTy).Contents (Elt F) → (⟨S200000x128, .i32⟩ : BufTy).Contents (Elt F)),
    unary main_v14 main_v16 (broadcastInDim S200000x128 ![0, 1] bcast_S1x128_S200000x128_0_1 : (⟨S1x128, .i32⟩ : BufTy).Contents (Elt F) → (⟨S200000x128, .i32⟩ : BufTy).Contents (Elt F)),
    binary main_v15 main_v16 main_v17 (addi : (⟨S200000x128, .i32⟩ : BufTy).Contents (Elt F) → (⟨S200000x128, .i32⟩ : BufTy).Contents (Elt F) → (⟨S200000x128, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S200000x128, .i32⟩) main_call1_v0) (broadcastInDim S200000x128 ![] bcast_S_S200000x128),
    TRef.binary (TRef.of (T := ⟨S200000x128, .i32⟩) main_v17) (TRef.of (T := ⟨S200000x128, .i32⟩) main_call1_v0) (TRef.of (T := ⟨S200000x128, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S200000x128, .i32⟩) main_call1_v2) (broadcastInDim S200000x128 ![] bcast_S_S200000x128),
    TRef.binary (TRef.of (T := ⟨S200000x128, .i32⟩) main_v17) (TRef.of (T := ⟨S200000x128, .i32⟩) main_call1_v2) (TRef.of (T := ⟨S200000x128, .i32⟩) main_call1_v3) addi,
    TRef.ternary (TRef.of (T := ⟨S200000x128, .i1⟩) main_call1_v1) (TRef.of (T := ⟨S200000x128, .i32⟩) main_call1_v3) (TRef.of (T := ⟨S200000x128, .i32⟩) main_v17) (TRef.of (T := ⟨S200000x128, .i32⟩) main_call1_v4) select,
    TRef.reshape (TRef.of (T := ⟨S200000x128, .i32⟩) main_call1_v4) (TRef.of (T := ⟨S200000x128x1, .i32⟩) main_call1_v5) rfl shapeCasts_S200000x128_S200000x128x1,
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S200000x128x1, .i32⟩) main_call1_v6) (broadcastInDim S200000x128x1 ![] bcast_S_S200000x128x1),
    TRef.binary (TRef.of (T := ⟨S200000x128x1, .i32⟩) main_call1_v5) (TRef.of (T := ⟨S200000x128x1, .i32⟩) main_call1_v6) (TRef.of (T := ⟨S200000x128x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S200000x128x1, .i32⟩) main_call1_v9) (broadcastInDim S200000x128x1 ![0, 1, 2] bcast_S1x1x1_S200000x128x1_0_1_2),
    TRef.binary (TRef.of (T := ⟨S200000x128x1, .i32⟩) main_call1_v5) (TRef.of (T := ⟨S200000x128x1, .i32⟩) main_call1_v9) (TRef.of (T := ⟨S200000x128x1, .i1⟩) main_call1_v10) (cmpi .sle),
    TRef.binary (TRef.of (T := ⟨S200000x128x1, .i1⟩) main_call1_v7) (TRef.of (T := ⟨S200000x128x1, .i1⟩) main_call1_v10) (TRef.of (T := ⟨S200000x128x1, .i1⟩) main_call1_v11) andi,
    TRef.nullary (TRef.of (T := ⟨S_, .i1⟩) main_call1_c_3) (constantI S_ 1 1#1),
    TRef.binary (TRef.of (T := ⟨S200000x128x1, .i1⟩) main_call1_v11) (TRef.of (T := ⟨S_, .i1⟩) main_call1_c_3) (TRef.of (T := ⟨S200000x128, .i1⟩) main_call1_v12) (fun x v => Host.reduce IntOp.andi x v reducesTo_S200000x128x1_S200000x128_d2 h_S_),
    TRef.binary (TRef.of (T := ⟨S200000x1024, .f32⟩) main_v9) (TRef.of (T := ⟨S200000x128x1, .i32⟩) main_call1_v5) (TRef.of (T := ⟨S200000x128, .f32⟩) main_call1_v13) (fun x i => Host.gather gather_S200000x1024_S200000x128x1_S200000x128_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S200000x128, .f32⟩) main_call1_v14) (broadcastInDim S200000x128 ![] bcast_S_S200000x128),
    TRef.ternary (TRef.of (T := ⟨S200000x128, .i1⟩) main_call1_v12) (TRef.of (T := ⟨S200000x128, .f32⟩) main_call1_v13) (TRef.of (T := ⟨S200000x128, .f32⟩) main_call1_v14) (TRef.of (T := ⟨S200000x128, .f32⟩) main_v18) select ]

set_option maxRecDepth 8192 in
theorem main_eqT (c : Dev nD) : main (F := F) c = seq opsT := rfl

/-- The conjunction over the unit axis, with and without the moves along the type equalities: the same operation. -/
theorem reduce_op_eq : (TRef.binary (TRef.of (T := ⟨S200000x128x1, .i1⟩) main_call1_v11) (TRef.of (T := ⟨S_, .i1⟩) main_call1_c_3) (TRef.of (T := ⟨S200000x128, .i1⟩) main_call1_v12) (fun x v => Host.reduce IntOp.andi x v reducesTo_S200000x128x1_S200000x128_d2 h_S_) : HloOp τ sig (Elt F))
    = binary main_call1_v11 main_call1_c_3 main_call1_v12 ((fun x v => Host.reduce IntOp.andi x v reducesTo_S200000x128x1_S200000x128_d2 h_S_) : (⟨S200000x128x1, .i1⟩ : BufTy).Contents (Elt F) → (⟨S_, .i1⟩ : BufTy).Contents (Elt F) → (⟨S200000x128, .i1⟩ : BufTy).Contents (Elt F)) := by
  simp only [TRef.binary, TRef.toBuf, TRef.ofBuf, cast_eq]
  rfl

set_option maxRecDepth 8192 in
/-- The program's spelling of the line is the plain one: every move along a type equality is the identity. -/
theorem opsT_eq : (opsT : List (HloOp τ sig (Elt F))) = ops := by
  unfold opsT
  rw [reduce_op_eq]
  rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

/-! ## The line's side conditions, stretch by stretch -/

theorem forall_app {α : Type*} {p : α → Prop} {l₁ l₂ : List α} (h₁ : l₁.Forall p) (h₂ : l₂.Forall p) : (l₁ ++ l₂).Forall p :=
  List.forall_iff_forall_mem.2 fun a ha =>
    (List.mem_append.1 ha).elim (List.forall_iff_forall_mem.1 h₁ a) (List.forall_iff_forall_mem.1 h₂ a)

theorem ops1_sub : (ops1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., unary_bufs_sub .., binary_bufs_sub ..⟩
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops_sub : (ops : List (HloOp τ sig (Elt F))).Forall fun op => op.bufs ⊆ tcRefs τ sig :=
  forall_app ops1_sub (forall_app ops2_sub ops3_sub)

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.1 h).elim (ops1_fresh op) fun h => (List.mem_append.1 h).elim (ops2_fresh op) (ops3_fresh op)

/-- The contents after two stretches in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## Each stretch from any contents -/

section Stretches
variable (W : Valuation τ sig (Elt F))

/-- The float layers leave the second layer's full row of the six float arguments … -/
theorem after1_lay : after ops1 W (Proc.devRef .tc main_v9)
    = lay (W (Proc.devRef .tc main_arg0)) (W (Proc.devRef .tc main_arg1)) (W (Proc.devRef .tc main_arg3)) (W (Proc.devRef .tc main_arg4)) (W (Proc.devRef .tc main_arg5)) (W (Proc.devRef .tc main_arg6)) := by
  after_results_simp <;> rfl
/-- … and every argument as it was. -/
theorem after1_args : after ops1 W (Proc.devRef .tc main_arg0) = W (Proc.devRef .tc main_arg0)
      ∧ after ops1 W (Proc.devRef .tc main_arg1) = W (Proc.devRef .tc main_arg1)
      ∧ after ops1 W (Proc.devRef .tc main_arg2) = W (Proc.devRef .tc main_arg2)
      ∧ after ops1 W (Proc.devRef .tc main_arg3) = W (Proc.devRef .tc main_arg3)
      ∧ after ops1 W (Proc.devRef .tc main_arg4) = W (Proc.devRef .tc main_arg4)
      ∧ after ops1 W (Proc.devRef .tc main_arg5) = W (Proc.devRef .tc main_arg5)
      ∧ after ops1 W (Proc.devRef .tc main_arg6) = W (Proc.devRef .tc main_arg6) := by
  refine ⟨?_, ?_, ?_, ?_, ?_, ?_, ?_⟩ <;> after_results_simp

/-- The index stretch leaves the column index of the type array … -/
theorem after2_idx : after ops2 W (Proc.devRef .tc main_v17) = idx (W (Proc.devRef .tc main_arg2)) := by
  after_results_simp <;> rfl
/-- … the second layer's row as it was … -/
theorem after2_lay : after ops2 W (Proc.devRef .tc main_v9) = W (Proc.devRef .tc main_v9) := by
  after_results_simp
/-- … and every argument as it was. -/
theorem after2_args : after ops2 W (Proc.devRef .tc main_arg0) = W (Proc.devRef .tc main_arg0)
      ∧ after ops2 W (Proc.devRef .tc main_arg1) = W (Proc.devRef .tc main_arg1)
      ∧ after ops2 W (Proc.devRef .tc main_arg2) = W (Proc.devRef .tc main_arg2)
      ∧ after ops2 W (Proc.devRef .tc main_arg3) = W (Proc.devRef .tc main_arg3)
      ∧ after ops2 W (Proc.devRef .tc main_arg4) = W (Proc.devRef .tc main_arg4)
      ∧ after ops2 W (Proc.devRef .tc main_arg5) = W (Proc.devRef .tc main_arg5)
      ∧ after ops2 W (Proc.devRef .tc main_arg6) = W (Proc.devRef .tc main_arg6) := by
  refine ⟨?_, ?_, ?_, ?_, ?_, ?_, ?_⟩ <;> after_results_simp

/-- The lookup stretch leaves the lookup of the row it was handed at the index it was handed … -/
theorem after3_take : after ops3 W (Proc.devRef .tc main_v18) = take (W (Proc.devRef .tc main_v9)) (W (Proc.devRef .tc main_v17)) := by
  after_results_simp <;> rfl
/-- … and every argument as it was. -/
theorem after3_args : after ops3 W (Proc.devRef .tc main_arg0) = W (Proc.devRef .tc main_arg0)
      ∧ after ops3 W (Proc.devRef .tc main_arg1) = W (Proc.devRef .tc main_arg1)
      ∧ after ops3 W (Proc.devRef .tc main_arg2) = W (Proc.devRef .tc main_arg2)
      ∧ after ops3 W (Proc.devRef .tc main_arg3) = W (Proc.devRef .tc main_arg3)
      ∧ after ops3 W (Proc.devRef .tc main_arg4) = W (Proc.devRef .tc main_arg4)
      ∧ after ops3 W (Proc.devRef .tc main_arg5) = W (Proc.devRef .tc main_arg5)
      ∧ after ops3 W (Proc.devRef .tc main_arg6) = W (Proc.devRef .tc main_arg6) := by
  refine ⟨?_, ?_, ?_, ?_, ?_, ?_, ?_⟩ <;> after_results_simp

end Stretches

/-! ## The whole line -/

/-- After the whole line the result buffer holds `result` of the arguments' contents. -/
theorem after_result (V : Valuation τ sig (Elt F)) : after ops V (Proc.devRef .tc main_v18)
    = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_app, after_app, after3_take, after2_idx, after2_lay, after1_lay, (after1_args V).2.2.1]
  rfl

/-- After the whole line every argument holds what it held. -/
theorem after_args (V : Valuation τ sig (Elt F)) : after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6) := by
  obtain ⟨a0, a1, a2, a3, a4, a5, a6⟩ := after1_args V
  obtain ⟨b0, b1, b2, b3, b4, b5, b6⟩ := after2_args (after ops1 V)
  obtain ⟨c0, c1, c2, c3, c4, c5, c6⟩ := after3_args (after ops2 (after ops1 V))
  rw [after_app, after_app]
  exact ⟨c0.trans (b0.trans a0), c1.trans (b1.trans a1), c2.trans (b2.trans a2), c3.trans (b3.trans a3),
    c4.trans (b4.trans a4), c5.trans (b5.trans a5), c6.trans (b6.trans a6)⟩

/-- On every device, for any float values, from any memory with zero counters: every weakly fair execution of the
    reference terminates with its result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      have ha := after_args (launchContents m c)
      ⟨(h c main_v18).trans (after_result (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2.1,
        (h c main_arg6).trans ha.2.2.2.2.2.2⟩)
    (run_seq scopedRefs_eq scopedSems_eq defs main (fun _ => ops) main_eq (fun _ => ops_sub) m ρ (fun _ => ops_fresh))

end Cert.ReferenceIdeal.RefRun

end
-- ==== Proof.RefValue.lean ====
/-
  The reference's result is the function both programs compute.

  At entry `(e, c)` the column index is the word `type e · 128 + c`. For a type below 8 that word is below 1024:
  it is not negative, so it is not moved; it lies in `[0, 1023]`, so the entry is kept and the clamp is the
  identity; and the lookup reads column `128 · type e + c` of the second layer's row `e`. That row is the hidden
  row against `W2` plus the bias, the hidden row the rectified first layer, and the first layer's product of the
  joined row `[f e, t e]` against `W1` splits into the two half products.
-/
import proofs.«417091_j50955492000255_2_alg».proof.Proof.RefRun
import proofs.«417091_j50955492000255_2_alg».proof.Proof.Spec
import proofs.«417091_j50955492000255_2_alg».proof.Proof.LibPlainMatmul
import Idealize.ShloMosaic.Lib.Pipeline.Value
import Idealize.ShloMosaic.Lib.ValueIdx
import Idealize.ShloMosaic.Lib.StableHlo.Predicate
import Idealize.ShloMosaic.PureOps.Reduce
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun
open scoped BigOperators

local notation "gd" => gather_S200000x1024_S200000x128x1_S200000x128_n_1_0_0_1_2_11

/-! ## The index word -/

/-- `v · 128 + c` in 32-bit words. -/
def word (v : BitVec 32) (c : Fin 128) : BitVec 32 := IntOp.addi (IntOp.muli v 128#32) (BitVec.ofNat 32 c.val)

section Words
variable (v : BitVec 32) (c : Fin 128) (hv : v.toNat < 8)
include hv

/-- For `v < 8` nothing wraps: the word's value is `128 · v + c`. -/
theorem word_toNat : (word v c).toNat = 128 * v.toNat + c.val := by
  have hc := c.isLt
  unfold word IntOp.addi IntOp.muli
  rw [BitVec.toNat_add, BitVec.toNat_mul, BitVec.toNat_ofNat, BitVec.toNat_ofNat]
  omega

/-- It is not negative … -/
theorem word_slt : IntOp.cmpi .slt (word v c) 0#32 = 0#1 :=
  eq_zero_of_ne_one fun h => by
    have h1 := word_toNat v c hv
    have h2 := (Predicate.slt_iff_toNat (a := word v c) (b := 0#32) (by omega) (by decide)).1 h
    exact absurd h2 (Nat.not_lt_zero _)

theorem word_sge : IntOp.cmpi .sge (word v c) 0#32 = 1#1 := by
  have h1 := word_toNat v c hv
  exact (Predicate.sge_iff_toNat (a := word v c) (b := 0#32) (by omega) (by decide)).2 (Nat.zero_le _)

/-- … and at most 1023 … -/
theorem word_sle : IntOp.cmpi .sle (word v c) 1023#32 = 1#1 := by
  have h1 := word_toNat v c hv
  have hc := c.isLt
  refine (Predicate.sle_iff_toNat (a := word v c) (b := 1023#32) (by omega) (by decide)).2 ?_
  show (word v c).toNat ≤ 1023
  omega

/-- … so read signed and clamped into `[0, 1023]` it is `128 · v + c`. -/
theorem word_clamp : min (word v c).toInt.toNat 1023 = 128 * v.toNat + c.val := by
  have h1 := word_toNat v c hv
  have hc := c.isLt
  have h2 := Predicate.toInt_eq_toNat_of_lt (a := word v c) (by omega)
  omega

end Words

/-! ## The index array, the moved index, the kept entries -/

/-- Entry `(e, c)` of the index array is the word of `e`'s type and `c`. -/
theorem idx_apply (x2 : IVec S200000 32) (e : Fin 200000) (c : Fin 128) :
    idx x2 (ix2 e c) = word (x2 (ix1 e)) c := by
  unfold idx
  show IntOp.addi
      (broadcastInDim S200000x128 ![0, 1] bcast_S200000x1_S200000x128_0_1
        (muli (broadcastInDim S200000x1 ![0] bcast_S200000_S200000x1_0 x2)
          (broadcastInDim S200000x1 ![] bcast_S_S200000x1 (constantI S_ 32 128#32))) (ix2 e c))
      (broadcastInDim S200000x128 ![0, 1] bcast_S1x128_S200000x128_0_1
        (broadcastInDim S1x128 ![1] bcast_S128_S1x128_1 (iotaInDim S128 32 0)) (ix2 e c)) = _
  rw [broadcastInDim_apply _ bcast_S200000x1_S200000x128_0_1 _ (ix2 e c) (ix2 e (0 : Fin 1)) (fun a => match a with
      | ⟨0, _⟩ => by show e.val = if (200000 : Nat) = 1 then 0 else e.val; rw [if_neg (by decide)]
      | ⟨1, _⟩ => by show 0 = if (1 : Nat) = 1 then 0 else c.val; rw [if_pos rfl]),
    broadcastInDim_apply _ bcast_S1x128_S200000x128_0_1 _ (ix2 e c) (ix2 (0 : Fin 1) c) (fun a => match a with
      | ⟨0, _⟩ => by show 0 = if (1 : Nat) = 1 then 0 else e.val; rw [if_pos rfl]
      | ⟨1, _⟩ => by show c.val = if (128 : Nat) = 1 then 0 else c.val; rw [if_neg (by decide)]),
    broadcastInDim_apply _ bcast_S128_S1x128_1 _ (ix2 (0 : Fin 1) c) (ix1 c) (fun a => match a with
      | ⟨0, _⟩ => by show c.val = if (128 : Nat) = 1 then 0 else c.val; rw [if_neg (by decide)])]
  show IntOp.addi (IntOp.muli (broadcastInDim S200000x1 ![0] bcast_S200000_S200000x1_0 x2 (ix2 e (0 : Fin 1)))
      (broadcastInDim S200000x1 ![] bcast_S_S200000x1 (constantI S_ 32 128#32) (ix2 e (0 : Fin 1)))) _ = _
  rw [broadcastInDim_apply _ bcast_S200000_S200000x1_0 x2 (ix2 e (0 : Fin 1)) (ix1 e) (fun a => match a with
      | ⟨0, _⟩ => by show e.val = if (200000 : Nat) = 1 then 0 else e.val; rw [if_neg (by decide)])]
  rfl

/-- The moved index at `(e, c, ·)`: the index at `(e, c)`, 1024 more when it is negative. -/
theorem wrap_apply (j : IVec S200000x128 32) (e : Fin 200000) (c : Fin 128) (z : Fin 1) :
    wrap j (ix3 e c z)
      = Scalar.select (IntOp.cmpi .slt (j (ix2 e c)) 0#32) (IntOp.addi (j (ix2 e c)) 1024#32) (j (ix2 e c)) := by
  unfold wrap
  rw [shapeCast_apply _ shapeCasts_S200000x128_S200000x128x1 (ix3 e c z) (ix2 e c) (by
    rw [Shape.rowMajor_val_two, Shape.rowMajor_val_three]
    have hz := z.isLt
    show e.val * 128 + c.val = (e.val * 128 + c.val) * 1 + z.val
    omega)]
  show Scalar.select (IntOp.cmpi .slt (j (ix2 e c))
      (broadcastInDim S200000x128 ![] bcast_S_S200000x128 (constantI S_ 32 0#32) (ix2 e c)))
    (IntOp.addi (j (ix2 e c)) (broadcastInDim S200000x128 ![] bcast_S_S200000x128 (constantI S_ 32 1024#32) (ix2 e c)))
    (j (ix2 e c)) = _
  rfl

/-- A conjunction of ones from one is one. -/
theorem fold_andi_one {ι : Type} [DecidableEq ι] (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, ih (fun i hi => hx i (Finset.mem_cons_of_mem hi)), hx a (Finset.mem_cons_self a S)]
    rfl

/-- Where every moved index lies in `[0, 1023]`, every entry is kept. -/
theorem inRange_eq_one (w : IVec S200000x128x1 32)
    (hw : ∀ i, IntOp.cmpi .sge (w i) 0#32 = 1#1 ∧ IntOp.cmpi .sle (w i) 1023#32 = 1#1) (j : S200000x128.Idx) :
    inRange w j = 1#1 := by
  unfold inRange
  rw [Host.reduce_eq_fold]
  refine fold_andi_one _ _ fun i _ => ?_
  show IntOp.andi (IntOp.cmpi .sge (w i) 0#32) (IntOp.cmpi .sle (w i) 1023#32) = 1#1
  rw [(hw i).1, (hw i).2]
  rfl

/-! ## The row-wise lookup at an entry -/

/-- THE LOOKUP AT `(e, c)`: the operand at row `e` (the batching axis) and the column the index vector at
    `(e, c, 0)` names, read signed and clamped into `[0, 1023]`. -/
theorem gather_apply {α : Type} (x : S200000x1024.Idx → α) (w : IVec S200000x128x1 32) (e : Fin 200000) (c : Fin 128) :
    Host.gather gd x w (ix2 e c)
      = x (ix2 e ⟨min (w (ix3 e c (0 : Fin 1))).toInt.toNat 1023, Nat.lt_succ_of_le (Nat.min_le_right _ _)⟩) := by
  unfold Host.gather
  congr 1
  funext a
  refine Fin.ext ?_
  match a with
  | ⟨0, _⟩ =>
    show (gd).start (ix2 e c) w 0 + (gd).batchCoord (ix2 e c) 0 + (gd).offCoord (ix2 e c) 0 = e.val
    rw [GatherDims.start_batching _ _ _ _ (show (0 : Fin 2) ∈ (gd).operandBatchingDims from List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gd).operandBatchingDims from List.mem_singleton.mpr rfl)]
    rfl
  | ⟨1, _⟩ =>
    show (gd).start (ix2 e c) w 1 + (gd).batchCoord (ix2 e c) 1 + (gd).offCoord (ix2 e c) 1 = min (w (ix3 e c (0 : Fin 1))).toInt.toNat 1023
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gd).startIndexMap from List.mem_singleton.mpr rfl)]
    have hsi : (gd).siIdx (ix2 e c) ⟨List.idxOf (1 : Fin 2) (gd).startIndexMap,
        List.idxOf_lt_length_iff.2 (List.mem_singleton.mpr rfl)⟩ = ix3 e c (0 : Fin 1) := by
      funext b; refine Fin.ext ?_
      match b with
      | ⟨0, _⟩ => rfl
      | ⟨1, _⟩ => rfl
      | ⟨2, _⟩ => rfl
    rw [hsi]
    rfl

/-! ## The float layers at an entry -/

section Layers
variable (x0 x1 : FVec Ideal S200000x128 .f32) (x3 : FVec Ideal S256x512 .f32) (x4 : FVec Ideal S512 .f32)
  (x5 : FVec Ideal S512x1024 .f32) (x6 : FVec Ideal S1024 .f32)

/-- The joined row's first 128 features are the `from` embedding's … -/
theorem cat_lo (e : Fin 200000) (j : Fin 128) : cat x0 x1 (ix2 e (Cert.Spec.lo j)) = x0 (ix2 e j) := by
  unfold cat
  exact concatenate_pair_apply_left (1 : Fin S200000x256.rank) x0 x1 concatenates_S200000x128_S200000x128_S200000x256_d1
    (ix2 e (Cert.Spec.lo j)) rfl (ix2 e j) (fun b => match b with
      | ⟨0, _⟩ => rfl
      | ⟨1, _⟩ => rfl)

/-- … and its last 128 the `to` embedding's. -/
theorem cat_hi (e : Fin 200000) (j : Fin 128) : cat x0 x1 (ix2 e (Cert.Spec.hi j)) = x1 (ix2 e j) := by
  unfold cat
  exact concatenate_pair_apply_right (1 : Fin S200000x256.rank) x0 x1 concatenates_S200000x128_S200000x128_S200000x256_d1
    (ix2 e (Cert.Spec.hi j)) rfl rfl (ix2 e j) (fun b hb => match b, hb with
      | ⟨0, _⟩, _ => rfl
      | ⟨1, _⟩, hb => absurd rfl hb)
    (by show j.val + 128 = 128 + j.val; omega)

/-- The first bias along the rows. -/
theorem bias1_apply (e : Fin 200000) (k : Fin 512) :
    broadcastInDim S200000x512 ![0, 1] bcast_S1x512_S200000x512_0_1 (broadcastInDim S1x512 ![1] bcast_S512_S1x512_1 x4) (ix2 e k)
      = x4 (ix1 k) := by
  rw [broadcastInDim_apply _ bcast_S1x512_S200000x512_0_1 _ (ix2 e k) (ix2 (0 : Fin 1) k) (fun a => match a with
      | ⟨0, _⟩ => by show 0 = if (1 : Nat) = 1 then 0 else e.val; rw [if_pos rfl]
      | ⟨1, _⟩ => by show k.val = if (512 : Nat) = 1 then 0 else k.val; rw [if_neg (by decide)]),
    broadcastInDim_apply _ bcast_S512_S1x512_1 x4 (ix2 (0 : Fin 1) k) (ix1 k) (fun a => match a with
      | ⟨0, _⟩ => by show k.val = if (512 : Nat) = 1 then 0 else k.val; rw [if_neg (by decide)])]

/-- The second bias along the rows. -/
theorem bias2_apply (e : Fin 200000) (n : Fin 1024) :
    broadcastInDim S200000x1024 ![0, 1] bcast_S1x1024_S200000x1024_0_1 (broadcastInDim S1x1024 ![1] bcast_S1024_S1x1024_1 x6) (ix2 e n)
      = x6 (ix1 n) := by
  rw [broadcastInDim_apply _ bcast_S1x1024_S200000x1024_0_1 _ (ix2 e n) (ix2 (0 : Fin 1) n) (fun a => match a with
      | ⟨0, _⟩ => by show 0 = if (1 : Nat) = 1 then 0 else e.val; rw [if_pos rfl]
      | ⟨1, _⟩ => by show n.val = if (1024 : Nat) = 1 then 0 else n.val; rw [if_neg (by decide)]),
    broadcastInDim_apply _ bcast_S1024_S1x1024_1 x6 (ix2 (0 : Fin 1) n) (ix1 n) (fun a => match a with
      | ⟨0, _⟩ => by show n.val = if (1024 : Nat) = 1 then 0 else n.val; rw [if_neg (by decide)])]

/-- The first layer before the rectifier: the two half products and the bias. -/
theorem pre_apply (e : Fin 200000) (k : Fin 512) :
    pre x0 x1 x3 x4 (ix2 e k)
      = ((∑ j : Fin 128, x0 (ix2 e j) * x3 (ix2 (Cert.Spec.lo j) k)) + (∑ j : Fin 128, x1 (ix2 e j) * x3 (ix2 (Cert.Spec.hi j) k)))
        + x4 (ix1 k) := by
  unfold pre
  rw [addf_apply, bias1_apply]
  congr 1
  rw [show Host.dotGeneral dot_S200000x256_S256x512_S200000x512_1_0_0_1_n_n none (cat x0 x1) x3 (ix2 e k)
      = ∑ j : Fin 256, cat x0 x1 (ix2 e j) * x3 (ix2 j k) from
    Cert.Lib.PlainMatmul.dotGeneral_apply dot_S200000x256_S256x512_S200000x512_1_0_0_1_n_n rfl rfl rfl rfl rfl rfl none .single (cat x0 x1) x3 e k]
  rw [Cert.Spec.sum_256_split]
  congr 1
  · exact Finset.sum_congr rfl fun j _ => by rw [cat_lo]
  · exact Finset.sum_congr rfl fun j _ => by rw [cat_hi]

/-- The hidden layer is the function's. -/
theorem hid_apply (e : Fin 200000) (k : Fin 512) : hid x0 x1 x3 x4 (ix2 e k) = Cert.Spec.hidden x0 x1 x3 x4 e k := by
  unfold hid Cert.Spec.hidden
  rw [maximumf_apply, pre_apply]
  rfl

/-- The second layer is the function's. -/
theorem lay_apply (e : Fin 200000) (n : Fin 1024) :
    lay x0 x1 x3 x4 x5 x6 (ix2 e n) = Cert.Spec.layer2 x0 x1 x3 x4 x5 x6 e n := by
  unfold lay Cert.Spec.layer2
  rw [addf_apply, bias2_apply]
  congr 1
  rw [show Host.dotGeneral dot_S200000x512_S512x1024_S200000x1024_1_0_0_1_n_n none (hid x0 x1 x3 x4) x5 (ix2 e n)
      = ∑ k : Fin 512, hid x0 x1 x3 x4 (ix2 e k) * x5 (ix2 k n) from
    Cert.Lib.PlainMatmul.dotGeneral_apply dot_S200000x512_S512x1024_S200000x1024_1_0_0_1_n_n rfl rfl rfl rfl rfl rfl none .single (hid x0 x1 x3 x4) x5 e n]
  exact Finset.sum_congr rfl fun k _ => by rw [hid_apply]

end Layers

/-! ## The lookup at an entry, and the result -/

/-- With every type below 8, the lookup at `(e, c)` reads column `128 · type e + c` of row `e`. -/
theorem take_idx_apply (v : FVec Ideal S200000x1024 .f32) (x2 : IVec S200000 32)
    (het : ∀ e : Fin 200000, (x2 (ix1 e)).toNat < 8) (e : Fin 200000) (c : Fin 128) :
    take v (idx x2) (ix2 e c) = v (ix2 e (Cert.Spec.col (Cert.Spec.tyOf x2 e) c)) := by
  have hwrap : ∀ (e' : Fin 200000) (c' : Fin 128) (z : Fin 1), wrap (idx x2) (ix3 e' c' z) = word (x2 (ix1 e')) c' := by
    intro e' c' z
    rw [wrap_apply, idx_apply, word_slt _ _ (het e'), select_zero]
  have hin : inRange (wrap (idx x2)) (ix2 e c) = 1#1 := by
    refine inRange_eq_one _ (fun i => ?_) _
    obtain ⟨e', c', z, rfl⟩ : ∃ (e' : Fin 200000) (c' : Fin 128) (z : Fin 1), i = ix3 e' c' z := ⟨i 0, i 1, i 2, eq_ix3 i⟩
    rw [hwrap]
    exact ⟨word_sge _ _ (het e'), word_sle _ _ (het e')⟩
  unfold take
  rw [select_apply, hin, select_one, gather_apply]
  refine congrArg v (congrArg (ix2 e) (Fin.ext ?_))
  show min (wrap (idx x2) (ix3 e c (0 : Fin 1))).toInt.toNat 1023 = 128 * ((x2 (ix1 e)).toNat % 8) + c.val
  rw [hwrap, word_clamp _ _ (het e), Nat.mod_eq_of_lt (het e)]

/-- The reference's result as a function of its arguments. -/
def R (x0 x1 : FVec Ideal S200000x128 .f32) (x2 : IVec S200000 32) (x3 : FVec Ideal S256x512 .f32) (x4 : FVec Ideal S512 .f32) (x5 : FVec Ideal S512x1024 .f32) (x6 : FVec Ideal S1024 .f32) : FVec Ideal S200000x128 .f32 :=
  result (F := Ideal) x0 x1 x2 x3 x4 x5 x6

/-- On every device, from any memory with zero counters: every weakly fair execution of the reference terminates with
    its result buffer at `R` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = R (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  RefRun.run (F := Ideal) m ρ

/-- THE REFERENCE COMPUTES THE FUNCTION: with every type below 8, its result is `G` of its arguments. -/
theorem R_eq_G (x0 x1 : FVec Ideal S200000x128 .f32) (x2 : IVec S200000 32) (x3 : FVec Ideal S256x512 .f32) (x4 : FVec Ideal S512 .f32) (x5 : FVec Ideal S512x1024 .f32) (x6 : FVec Ideal S1024 .f32)
    (het : ∀ e : Fin 200000, (x2 (ValueIdx.ix1 e)).toNat < 8) :
    R x0 x1 x2 x3 x4 x5 x6 = Cert.Spec.G x0 x1 x3 x4 x5 x6 x2 := by
  funext i
  obtain ⟨e, c, rfl⟩ : ∃ (e : Fin 200000) (c : Fin 128), i = ix2 e c := ⟨i 0, i 1, eq_ix2 i⟩
  rw [Cert.Spec.G_ix2]
  unfold R result Cert.Spec.resultAt
  rw [take_idx_apply _ x2 het, lay_apply]

end Cert.ReferenceIdeal.RefValue

end
-- ==== Proof.lean ====
/-
  The certificate of an edge network's message kernel against its reference, over the extended reals.

  Each of 200000 edges carries two 128-wide embeddings and a type in `[0, 8)`. Both programs apply a two-layer
  perceptron to the concatenated embeddings (hidden width 512, a rectifier between the layers; the second layer is
  1024 = 8 · 128 wide) and keep, of the second layer's row, the 128 columns of the edge's own type. The reference
  forms the whole 1024-wide row and gathers columns `128 · type + c`; the kernel, on blocks of 2000 edges, forms for
  each of the eight types the product with that type's 128 columns and adds the eight products masked by the
  indicator of the edge's type (the types clamped into `[0, 7]` first). Over the extended reals the two agree: the
  concatenated row against all of the first layer's weights is the sum of the two half products, and of the eight
  masked terms seven vanish and one is multiplied by one. No law used needs the floats finite; what the
  precondition is used for is that every type lies in `[0, 8)`: outside it the reference's gather index leaves the
  row (it wraps a negative index or fills with NaN) while the kernel clamps.

  The three frames are the generated frames of the two kernel programs and the reference's run with its result
  forgotten; the ideal pass rewrote nothing, so there is nothing to preserve.
-/
import proofs.«417091_j50955492000255_2_alg».proof.Defs
import proofs.«417091_j50955492000255_2_alg».proof.Proof.Gen.Kernel
import proofs.«417091_j50955492000255_2_alg».proof.Proof.Gen.Kernel.Skeleton
import proofs.«417091_j50955492000255_2_alg».proof.Proof.Gen.Kernel.Launch
import proofs.«417091_j50955492000255_2_alg».proof.Proof.Gen.Kernel.Points
import proofs.«417091_j50955492000255_2_alg».proof.Proof.Gen.Kernel.Frame
import proofs.«417091_j50955492000255_2_alg».proof.Proof.Gen.KernelIdeal
import proofs.«417091_j50955492000255_2_alg».proof.Proof.Gen.KernelIdeal.Skeleton
import proofs.«417091_j50955492000255_2_alg».proof.Proof.Gen.KernelIdeal.Launch
import proofs.«417091_j50955492000255_2_alg».proof.Proof.Gen.KernelIdeal.Points
import proofs.«417091_j50955492000255_2_alg».proof.Proof.Gen.KernelIdeal.Frame
import proofs.«417091_j50955492000255_2_alg».proof.Proof.Gen.ReferenceIdeal
import proofs.«417091_j50955492000255_2_alg».proof.Proof.Gen.Pre_finite_inputs
import proofs.«417091_j50955492000255_2_alg».proof.Proof.Gen.KernelIdeal.Value
import proofs.«417091_j50955492000255_2_alg».proof.Proof.Blocks
import proofs.«417091_j50955492000255_2_alg».proof.Proof.PreDecode
import proofs.«417091_j50955492000255_2_alg».proof.Proof.RefValue
import Idealize.ShloMosaic.Adequacy
import Idealize.ShloMosaic.Init

noncomputable section
namespace Cert.Proof

open Idealize.ShloMosaic Idealize.SL.Sem Idealize.ShloMosaic.ValueIdx

/-- The kernel as printed runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both idealized programs end with the result function of the arguments: the kernel block by block, the reference
    operation by operation; the precondition is used for the type labels only (each in `[0, 8)`). -/
theorem algebraic : Cert.algebraic_KernelIdeal_ReferenceIdeal := by
  intro m ρ m' ρ' hpre hagree
  have het : ∀ (c : Dev Cert.KernelIdeal.nD) (e : Fin 200000),
      ((m ((c.tc : Thread Cert.KernelIdeal.nD Cert.KernelIdeal.τ).loc Cert.KernelIdeal.main_arg2) :
        Cert.KernelIdeal.S200000.Idx → BitVec 32) (ix1 e)).toNat < 8 :=
    fun c e => Cert.PreDecode.et_lt_of_pre _ _ _ _ _ _ _ (hpre c) e
  refine ⟨fun c => Cert.KernelIdeal.Blocks.Gm m c, Cert.KernelIdeal.Blocks.run m ρ het, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2]
  exact Cert.ReferenceIdeal.RefValue.R_eq_G _ _ _ _ _ _ _ (het c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
